-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S200x128 : Shape := ⟨2, ![200, 128]⟩
abbrev S400x10000 : Shape := ⟨2, ![400, 10000]⟩
abbrev S400x128 : Shape := ⟨2, ![400, 128]⟩

abbrev nBuf : Space → Nat
  | .hbm => 12
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S8x128, .f32⟩
  | .hbm, ⟨8, _⟩ => ⟨S1x128, .f32⟩
  | .hbm, ⟨9, _⟩ => ⟨S8x128, .f32⟩
  | .hbm, ⟨10, _⟩ => ⟨S10000x128, .f32⟩
  | .hbm, ⟨11, _⟩ => ⟨S200x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S8x128, .f32⟩
  | .local _ .vmem, ⟨5, _⟩ => ⟨S128x128, .f32⟩
  | .local _ .vmem, ⟨6, _⟩ => ⟨S8x128, .f32⟩
  | .local _ .vmem, ⟨7, _⟩ => ⟨S400x128, .f32⟩
  | .local _ .vmem, ⟨8, _⟩ => ⟨S400x128, .f32⟩
  | .local _ .vmem, ⟨9, _⟩ => ⟨S8x128, .f32⟩
  | .local _ .vmem, ⟨10, _⟩ => ⟨S8x128, .f32⟩
  | .local _ .vmem, ⟨11, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c400_i32 : BitVec 32 := 400#32
  let v19 : BitVec 32 := Scalar.muli arg1 c400_i32
  let v20 : Index := Scalar.indexCast v19
  let c0_14 : Index := 0#32
  ![v20.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c24_i32 : BitVec 32 := 24#32
  let v2 : BitVec 32 := Scalar.muli c24_i32 arg0
  let v3 : BitVec 32 := Scalar.addi v1 v2
  let c0_i32 : BitVec 32 := 0#32
  let c0_i32_0 : BitVec 32 := 0#32
  ![v3.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S8x128_S1x128_0_0 : ∀ a, (![0, 0] : Fin 2 → Nat) a + S1x128.size a ≤ S8x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S8x128_S8x128_0_0 : ∀ a, (![0, 0] : Fin 2 → Nat) a + S8x128.size a ≤ S8x128.size a
  h_S8x128 : 0 < S8x128.numel
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h1 : k0_cond1 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S200x128.size a
  hwx0_7 : ∀ i : grid0.Coords, EltTy.bits .f32 = 32 ∨ (Rect.block (s := S200x128) S8x128.size (cc0_transform_7 i) (hinb0_7 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond1 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The two-layer graph convolution as plain sums over the extended reals, index by index.

  With A : [10000,10000], X : [10000,128], W1, W2 : [128,128], b1, b2 : [128]:
    hidden pre-activation   H = A·X·W1        (row r, column k)
    second support          S = relu(H + b1)·W2
    result                  O = A·S + b2
  The product A·X·W1 can be bracketed two ways: `hidL` is (A·X)·W1, `hidR` is A·(X·W1).  Everything after
  the hidden pre-activation is one function `out` of it, so the two bracketings differ only there.
-/
import Idealize.ShloMosaic.PureOps.Ideal
import Idealize.ShloMosaic.Lib.ValueIdx

noncomputable section

namespace Cert.Gcn

open Idealize.ShloMosaic Idealize.ShloMosaic.ValueIdx

abbrev SNxD : Shape := ⟨2, ![10000, 128]⟩
abbrev SNxN : Shape := ⟨2, ![10000, 10000]⟩
abbrev SDxD : Shape := ⟨2, ![128, 128]⟩
abbrev SD : Shape := ⟨1, ![128]⟩

/-- (A·X)·W1 at row `r`, column `k`: the inner sum runs over the 10000 nodes, the outer over the 128 features. -/
def hidL (A : SNxN.Idx → EReal) (X : SNxD.Idx → EReal) (W1 : SDxD.Idx → EReal) (r : Fin 10000) (k : Fin 128) : EReal :=
  ∑ l : Fin 128, (∑ j : Fin 10000, A (ix2 r j) * X (ix2 j l)) * W1 (ix2 l k)

/-- A·(X·W1) at row `r`, column `k`: the inner sum runs over the 128 features, the outer over the 10000 nodes. -/
def hidR (A : SNxN.Idx → EReal) (X : SNxD.Idx → EReal) (W1 : SDxD.Idx → EReal) (r : Fin 10000) (k : Fin 128) : EReal :=
  ∑ j : Fin 10000, A (ix2 r j) * (∑ l : Fin 128, X (ix2 j l) * W1 (ix2 l k))

/-- relu(H + b1)·W2 at row `r`, column `q`, for a hidden pre-activation `H`. -/
def supp2 (H : Fin 10000 → Fin 128 → EReal) (b1 : SD.Idx → EReal) (W2 : SDxD.Idx → EReal) (r : Fin 10000) (q : Fin 128) : EReal :=
  ∑ k : Fin 128, max (H r k + b1 (ix1 k)) 0 * W2 (ix2 k q)

/-- A·relu(H + b1)·W2 + b2 at row `r`, column `q`. -/
def outAt (H : Fin 10000 → Fin 128 → EReal) (A : SNxN.Idx → EReal) (b1 : SD.Idx → EReal) (W2 : SDxD.Idx → EReal)
    (b2 : SD.Idx → EReal) (r : Fin 10000) (q : Fin 128) : EReal :=
  (∑ j : Fin 10000, A (ix2 r j) * supp2 H b1 W2 j q) + b2 (ix1 q)

/-- The whole result array for a hidden pre-activation `H`. -/
def out (H : Fin 10000 → Fin 128 → EReal) (A : SNxN.Idx → EReal) (b1 : SD.Idx → EReal) (W2 : SDxD.Idx → EReal)
    (b2 : SD.Idx → EReal) : SNxD.Idx → EReal :=
  fun i => outAt H A b1 W2 b2 (i 0) (i 1)

end Cert.Gcn

end
-- ==== Proof.Algebra.lean ====
/-
  Associativity of the triple matrix product over the extended reals, for real entries.

  The extended reals do not distribute multiplication over addition at the infinities, so the law
  (A·X)·W1 = A·(X·W1) is proved for entries that are coercions of reals: every product and every
  finite sum of coercions is again a coercion, and in the reals the two sides are the same double sum
  ∑ l, ∑ j, a r j * x j l * w l k, summed in the two orders.
-/
import proofs.«154344_g8632884265528_cont_9to1c4b_176_24_alg».proof.Proof.Spec
import Mathlib.Data.EReal.Operations
import Mathlib.Algebra.BigOperators.Ring.Finset
import Mathlib.Algebra.BigOperators.Group.Finset.Basic

noncomputable section

namespace Cert.Gcn

open Idealize.ShloMosaic Idealize.ShloMosaic.ValueIdx

/-- The coercion of the reals into the extended reals commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product in the reals, over arbitrary finite index types. -/
theorem real_triple_assoc {ι κ : Type*} [Fintype ι] [Fintype κ] (a : ι → ℝ) (x : ι → κ → ℝ) (w : κ → ℝ) :
    ∑ l : κ, (∑ j : ι, a j * x j l) * w l = ∑ j : ι, a j * (∑ l : κ, x j l * w l) := by
  simp_rw [Finset.sum_mul, Finset.mul_sum]
  rw [Finset.sum_comm]
  refine Finset.sum_congr rfl fun j _ => Finset.sum_congr rfl fun l _ => ?_
  ring

/-- (A·X)·W1 = A·(X·W1) when all entries are real. -/
theorem hidL_eq_hidR (A : SNxN.Idx → EReal) (X : SNxD.Idx → EReal) (W1 : SDxD.Idx → EReal)
    (hA : ∀ i, ∃ a : ℝ, A i = (a : EReal)) (hX : ∀ i, ∃ a : ℝ, X i = (a : EReal)) (hW : ∀ i, ∃ a : ℝ, W1 i = (a : EReal)) :
    hidL A X W1 = hidR A X W1 := by
  choose a ha using hA
  choose x hx using hX
  choose w hw using hW
  funext r k
  unfold hidL hidR
  simp only [ha, hx, hw, ← EReal.coe_mul, ← coe_finsum]
  exact congrArg _ (real_triple_assoc (fun j => a (ix2 r j)) (fun j l => x (ix2 j l)) (fun l => w (ix2 l k)))

end Cert.Gcn

end
-- ==== Proof.Finite.lean ====
/-
  From the precondition "every entry of every input has absolute value below +∞" to "every entry is a real".

  The precondition is the conjunction, over the six input arrays, of an all-reduction by `and` of the
  comparison |entry| < +∞.  The conjunction splits into its six parts; each all-reduction being 1 gives the
  comparison at every index; and an extended real whose absolute value max v (-v) is below ⊤ is neither ⊤ nor ⊥,
  so it is the coercion of a real.
-/
import proofs.«154344_g8632884265528_cont_9to1c4b_176_24_alg».proof.Proof.Gen.Pre_finite_inputs
import Idealize.ShloMosaic.Lib.ReduceAll
import Idealize.ShloMosaic.PureOps.Ideal

noncomputable section

namespace Cert.Gcn

open Idealize.ShloMosaic

/-- The shape of rank 0 has exactly one index. -/
instance : Subsingleton Cert.Pre_finite_inputs.S_.Idx := ⟨fun _ _ => funext fun d => d.elim0⟩

/-- The bit pattern 0x7F800000 denotes +∞. -/
theorem ofBits_inf : Ideal.ofBits .f32 0x7F800000#32 = (⊤ : EReal) := by
  simp [Ideal.ofBits, Ideal.ieee]

/-- An extended real whose absolute value is below +∞ is a real. -/
theorem real_of_abs_lt_top (v : EReal) (h : max v (-v) < ⊤) : ∃ a : ℝ, v = (a : EReal) := by
  induction v using EReal.rec with
  | bot => simp at h
  | coe a => exact ⟨a, rfl⟩
  | top => simp at h

/-- One entry: the comparison |x i| < +∞ being 1 makes x i a real. -/
theorem real_of_cmp {s : Shape} (x : FVec Ideal s .f32) (dims : Fin Cert.Pre_finite_inputs.S_.rank → Fin s.rank)
    (hb : Cert.Pre_finite_inputs.S_.BroadcastsInDim s dims) (i : s.Idx)
    (h : cmpf .olt (Host.absf x) (broadcastInDim s dims hb (constant Cert.Pre_finite_inputs.S_ .f32 0x7F800000#32)) i = 1#1) :
    ∃ a : ℝ, x i = (a : EReal) := by
  have h' : BitVec.ofBool (decide (max (x i) (-(x i)) < Ideal.ofBits .f32 0x7F800000#32)) = 1#1 := h
  rw [ofBits_inf] at h'
  refine real_of_abs_lt_top (x i) ?_
  by_contra hn
  rw [decide_eq_false hn] at h'
  exact absurd h' (by decide)

theorem real_of_finite (x : FVec Ideal Cert.Pre_finite_inputs.S10000x128 .f32) (adj : FVec Ideal Cert.Pre_finite_inputs.S10000x10000 .f32) (W1 : FVec Ideal Cert.Pre_finite_inputs.S128x128 .f32) (b1 : FVec Ideal Cert.Pre_finite_inputs.S128 .f32) (W2 : FVec Ideal Cert.Pre_finite_inputs.S128x128 .f32) (b2 : FVec Ideal Cert.Pre_finite_inputs.S128 .f32)
    (h : Cert.Pre_finite_inputs.fn (F := Ideal) x adj W1 b1 W2 b2 = fun _ => 1#1) :
    (∀ i, ∃ a : ℝ, adj i = (a : EReal)) ∧ (∀ i, ∃ a : ℝ, x i = (a : EReal)) ∧ (∀ i, ∃ a : ℝ, W1 i = (a : EReal)) := by
  have h0 := congrFun h (fun a => a.elim0)
  dsimp only [Cert.Pre_finite_inputs.fn, Cert.Pre_finite_inputs.fn_part1, andi] at h0
  obtain ⟨h1, -⟩ := IntOp.andi_eq_one.1 h0
  obtain ⟨h2, -⟩ := IntOp.andi_eq_one.1 h1
  obtain ⟨h3, -⟩ := IntOp.andi_eq_one.1 h2
  obtain ⟨h4, hW⟩ := IntOp.andi_eq_one.1 h3
  obtain ⟨hx, hadj⟩ := IntOp.andi_eq_one.1 h4
  refine ⟨fun i => ?_, fun i => ?_, fun i => ?_⟩
  · exact real_of_cmp adj _ _ i (Host.reduce_andi_all _ _ _ _ _ hadj i)
  · exact real_of_cmp x _ _ i (Host.reduce_andi_all _ _ _ _ _ hx i)
  · exact real_of_cmp W1 _ _ i (Host.reduce_andi_all _ _ _ _ _ hW i)

end Cert.Gcn

end
-- ==== Proof.RefSide.lean ====
/-
  The reference program's result, read index by index, is the two-layer graph convolution with the hidden
  pre-activation bracketed as A·(X·W1).

  The program computes, in order: X·W1, A·(X·W1), the bias b1 spread over the rows, their sum, the zero array,
  the maximum with it, the product with W2, the product of A with that, the bias b2 spread over the rows, and the
  final sum.  Each stage is read at a row r and a column q; a matrix product at (r, q) is a sum over the
  contracted axis, a spread bias at (r, q) is the bias at q, and the zero constant is the extended real 0.
-/
import proofs.«154344_g8632884265528_cont_9to1c4b_176_24_alg».proof.Proof.Gen.ReferenceIdeal.Read
import proofs.«154344_g8632884265528_cont_9to1c4b_176_24_alg».proof.Proof.Spec
import Idealize.ShloMosaic.PureOps.Ideal.Laws
import Idealize.ShloMosaic.Lib.ValueIdx
import Idealize.ShloMosaic.Lib.Pipeline.Value

noncomputable section

namespace Cert.Gcn.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The composed index functions at a row and a column -/

/-- Left operand of X·W1 at (j, k), contracted position l: row j, column l. -/
theorem lidx_v0 (j : Fin 10000) (k l : Fin 128) : lidx_main_v0 (ix2 j k) l = ix2 j l :=
  funext fun a => Fin.ext (by match a with | ⟨0, _⟩ => rfl | ⟨1, _⟩ => rfl)
/-- Right operand of X·W1 at (j, k), contracted position l: row l, column k. -/
theorem ridx_v0 (j : Fin 10000) (k l : Fin 128) : ridx_main_v0 (ix2 j k) l = ix2 l k :=
  funext fun a => Fin.ext (by match a with | ⟨0, _⟩ => rfl | ⟨1, _⟩ => rfl)
/-- Left operand of A·(X·W1) at (r, k), contracted position j: row r, column j. -/
theorem lidx_v1 (r : Fin 10000) (k : Fin 128) (j : Fin 10000) : lidx_main_v1 (ix2 r k) j = ix2 r j :=
  funext fun a => Fin.ext (by match a with | ⟨0, _⟩ => rfl | ⟨1, _⟩ => rfl)
/-- Right operand of A·(X·W1) at (r, k), contracted position j: row j, column k. -/
theorem ridx_v1 (r : Fin 10000) (k : Fin 128) (j : Fin 10000) : ridx_main_v1 (ix2 r k) j = ix2 j k :=
  funext fun a => Fin.ext (by match a with | ⟨0, _⟩ => rfl | ⟨1, _⟩ => rfl)
/-- Left operand of relu(…)·W2 at (j, q), contracted position k: row j, column k. -/
theorem lidx_v7 (j : Fin 10000) (q k : Fin 128) : lidx_main_v7 (ix2 j q) k = ix2 j k :=
  funext fun a => Fin.ext (by match a with | ⟨0, _⟩ => rfl | ⟨1, _⟩ => rfl)
/-- Right operand of relu(…)·W2 at (j, q), contracted position k: row k, column q. -/
theorem ridx_v7 (j : Fin 10000) (q k : Fin 128) : ridx_main_v7 (ix2 j q) k = ix2 k q :=
  funext fun a => Fin.ext (by match a with | ⟨0, _⟩ => rfl | ⟨1, _⟩ => rfl)
/-- Left operand of A·S at (r, q), contracted position j: row r, column j. -/
theorem lidx_v8 (r : Fin 10000) (q : Fin 128) (j : Fin 10000) : lidx_main_v8 (ix2 r q) j = ix2 r j :=
  funext fun a => Fin.ext (by match a with | ⟨0, _⟩ => rfl | ⟨1, _⟩ => rfl)
/-- Right operand of A·S at (r, q), contracted position j: row j, column q. -/
theorem ridx_v8 (r : Fin 10000) (q : Fin 128) (j : Fin 10000) : ridx_main_v8 (ix2 r q) j = ix2 j q :=
  funext fun a => Fin.ext (by match a with | ⟨0, _⟩ => rfl | ⟨1, _⟩ => rfl)
/-- The bias spread over the rows, at (r, q), reads the bias at q (first layer). -/
theorem idx_v2_v3 (r : Fin 10000) (q : Fin 128) : idx_main_v2 (idx_main_v3 (ix2 r q)) = ix1 q :=
  funext fun a => Fin.ext (by match a with | ⟨0, _⟩ => rfl)
/-- The bias spread over the rows, at (r, q), reads the bias at q (second layer). -/
theorem idx_v9_v10 (r : Fin 10000) (q : Fin 128) : idx_main_v9 (idx_main_v10 (ix2 r q)) = ix1 q :=
  funext fun a => Fin.ext (by match a with | ⟨0, _⟩ => rfl)

/-! ## The stages at a row and a column -/

section Stages

variable (x : FVec Ideal S10000x128 .f32) (adj : FVec Ideal S10000x10000 .f32) (W1 : FVec Ideal S128x128 .f32)
  (b1 : FVec Ideal S128 .f32) (W2 : FVec Ideal S128x128 .f32) (b2 : FVec Ideal S128 .f32)

/-- X·W1 at (j, k). -/
theorem stage0 (j : Fin 10000) (k : Fin 128) :
    val_main_v0 (F := Ideal) x W1 (ix2 j k) = ∑ l : Fin 128, x (ix2 j l) * W1 (ix2 l k) := by
  rw [val_main_v0_apply]
  refine Finset.sum_congr rfl fun l _ => ?_
  rw [lidx_v0, ridx_v0]

/-- A·(X·W1) at (r, k) is the hidden pre-activation, inner sum over the features. -/
theorem stage1 (r : Fin 10000) (k : Fin 128) :
    val_main_v1 (F := Ideal) x adj W1 (ix2 r k) = Cert.Gcn.hidR adj x W1 r k := by
  rw [val_main_v1_apply]
  unfold Cert.Gcn.hidR
  refine Finset.sum_congr rfl fun j _ => ?_
  rw [lidx_v1, ridx_v1, stage0]

/-- b1 spread over the rows, at (r, k). -/
theorem stage3 (r : Fin 10000) (k : Fin 128) :
    val_main_v3 (F := Ideal) b1 (ix2 r k) = b1 (ix1 k) := by
  rw [val_main_v3_apply, val_main_v2_apply, idx_v2_v3]

/-- The zero array, at any index. -/
theorem stage5 (i : S10000x128.Idx) : val_main_v5 (F := Ideal) i = (0 : EReal) := by
  rw [val_main_v5_apply, val_main_cst_apply, Ideal.ofBits_def, Ideal.ofBits_zero_f32]

/-- relu(H + b1) at (r, k). -/
theorem stage6 (r : Fin 10000) (k : Fin 128) :
    val_main_v6 (F := Ideal) x adj W1 b1 (ix2 r k) = max (Cert.Gcn.hidR adj x W1 r k + b1 (ix1 k)) 0 := by
  rw [val_main_v6_apply, val_main_v4_apply, stage1, stage3, stage5, Ideal.addf_def, Ideal.maximumf_def]

/-- relu(H + b1)·W2 at (j, q). -/
theorem stage7 (j : Fin 10000) (q : Fin 128) :
    val_main_v7 (F := Ideal) x adj W1 b1 W2 (ix2 j q) = Cert.Gcn.supp2 (Cert.Gcn.hidR adj x W1) b1 W2 j q := by
  rw [val_main_v7_apply]
  unfold Cert.Gcn.supp2
  refine Finset.sum_congr rfl fun k _ => ?_
  rw [lidx_v7, ridx_v7, stage6]

/-- A·(relu(H + b1)·W2) at (r, q). -/
theorem stage8 (r : Fin 10000) (q : Fin 128) :
    val_main_v8 (F := Ideal) x adj W1 b1 W2 (ix2 r q)
      = ∑ j : Fin 10000, adj (ix2 r j) * Cert.Gcn.supp2 (Cert.Gcn.hidR adj x W1) b1 W2 j q := by
  rw [val_main_v8_apply]
  refine Finset.sum_congr rfl fun j _ => ?_
  rw [lidx_v8, ridx_v8, stage7]

/-- b2 spread over the rows, at (r, q). -/
theorem stage10 (r : Fin 10000) (q : Fin 128) :
    val_main_v10 (F := Ideal) b2 (ix2 r q) = b2 (ix1 q) := by
  rw [val_main_v10_apply, val_main_v9_apply, idx_v9_v10]

end Stages

/-! ## The whole result -/

/-- The reference's composed term of its six argument arrays is the specification's result with the hidden
    pre-activation A·(X·W1). -/
theorem ref_term_eq (x : FVec Ideal Cert.ReferenceIdeal.S10000x128 .f32) (adj : FVec Ideal Cert.ReferenceIdeal.S10000x10000 .f32)
    (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32) :
    addf (F := Ideal) (Host.dotGeneral (F := Ideal) dot_S10000x10000_S10000x128_S10000x128_1_0_0_1_n_n none adj (Host.dotGeneral (F := Ideal) dot_S10000x128_S128x128_S10000x128_1_0_0_1_n_n none (maximumf (F := Ideal) (addf (F := Ideal) (Host.dotGeneral (F := Ideal) dot_S10000x10000_S10000x128_S10000x128_1_0_0_1_n_n none adj (Host.dotGeneral (F := Ideal) dot_S10000x128_S128x128_S10000x128_1_0_0_1_n_n none x W1)) (broadcastInDim S10000x128 ![0, 1] bcast_S1x128_S10000x128_0_1 (broadcastInDim S1x128 ![1] bcast_S128_S1x128_1 b1))) (broadcastInDim S10000x128 ![] bcast_S_S10000x128 (constant (F := Ideal) S_ .f32 0x00000000#32))) W2)) (broadcastInDim S10000x128 ![0, 1] bcast_S1x128_S10000x128_0_1 (broadcastInDim S1x128 ![1] bcast_S128_S1x128_1 b2))
      = Cert.Gcn.out (Cert.Gcn.hidR adj x W1) adj b1 W2 b2 := by
  rw [val_main_v11_eq]
  funext i
  obtain ⟨r, q, rfl⟩ : ∃ (r : Fin 10000) (q : Fin 128), i = ix2 r q := ⟨i 0, i 1, eq_ix2 i⟩
  rw [val_main_v11_apply, stage8, stage10, Ideal.addf_def]
  rfl

end Cert.Gcn.Ref

end
-- ==== Proof.BodyK.lean ====
import proofs.«154344_g8632884265528_cont_9to1c4b_176_24_alg».proof.Proof.Gen.Kernel.Frame
import proofs.«154344_g8632884265528_cont_9to1c4b_176_24_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two phases of the body

The grid is 2 × 25.  At a point of the first row (phase one) the body multiplies the point's 400 rows of the
adjacency matrix through the two layers up to the second support and stores those 400 rows into the scratch
array; at a point of the second row (phase two) it multiplies the same 400 rows of the adjacency matrix with
the WHOLE scratch array, adds the bias, and stores the result block. -/

/-- The zero offsets of a rank-two rectangle. -/
theorem zero2 : (![0, 0] : Fin 2 → Nat) = fun _ => 0 := by funext a; fin_cases a <;> rfl

/-- The body is in phase one. -/
abbrev condA (i : grid0.Coords) : Prop := k0_cond1 i = 1#1
/-- The body is in phase two. -/
abbrev condB (i : grid0.Coords) : Prop := k0_cond2 i = 1#1

/-- The rectangles the body loads and stores through. -/
abbrev rAdj : Rect S400x10000 := Rect.unit (s := S400x10000) ![0, 0] S400x10000.size inb_S400x10000_S400x10000_0_0
abbrev rBig : Rect S10000x128 := Rect.unit (s := S10000x128) ![0, 0] S10000x128.size inb_S10000x128_S10000x128_0_0
abbrev rSq : Rect S128x128 := Rect.unit (s := S128x128) ![0, 0] S128x128.size inb_S128x128_S128x128_0_0
abbrev rRow : Rect S8x128 := Rect.unit (s := S8x128) ![0, 0] S1x128.size inb_S8x128_S1x128_0_0
abbrev rOut : Rect S400x128 := Rect.unit (s := S400x128) ![0, 0] S400x128.size inb_S400x128_S400x128_0_0
/-- The 400 rows of the scratch array that phase one fills at grid coordinates `i`. -/
abbrev rScr (i : grid0.Coords) (h : condA i) : Rect S10000x128 := Rect.unit (s := S10000x128) (k0_off1 i) S400x128.size (k0_off1_inb i h)

/-- The 400 rows of the second support computed in phase one from the blocks the body loads. -/
abbrev suppBlk (x0 : Vec F S400x10000 .f32) (x1 : Vec F S10000x128 .f32) (x2 : Vec F S128x128 .f32) (x3 : Vec F S8x128 .f32) (x4 : Vec F S128x128 .f32) : FVec F S400x128 .f32 :=
  k0_pay1 (View.ld x0 rAdj) (View.ld x1 rBig) (View.ld x2 rSq) (View.ld x3 rRow) (View.ld x4 rSq)

/-- The result block computed in phase two from the adjacency rows, the scratch array and the bias rows. -/
abbrev outBlk (x0 : Vec F S400x10000 .f32) (xs : Vec F S10000x128 .f32) (x5 : Vec F S8x128 .f32) : FVec F S400x128 .f32 :=
  k0_pay3 (View.ld x0 rAdj) (View.ld xs rBig) (View.ld x5 rRow)

/-- The scratch array after phase one at coordinates `i`: its prior contents `xs` with the point's 400 rows overwritten. -/
def scrAfter (arg10 : Memref sig .tc .vmem S10000x128 .f32) (harg10 : arg10.IsWhole) (i : grid0.Coords) (h : condA i)
    (P : FVec F S400x128 .f32) (xs : Vec F S10000x128 .f32) : Vec F S10000x128 .f32 :=
  arg10.view.read (Elt F) (arg10.view.writes (Elt F) (harg10.unread xs) [⟨rScr i h, P⟩])

set_option maxHeartbeats 1000000 in
/-- Phase one: the inputs are only read, the result block's buffer is not touched, the sink block is stored into, and
    the scratch array has the point's 400 rows overwritten by the second support's rows. -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S8x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S400x128 .f32) (harg8 : arg8.IsWhole) (arg9 : Memref sig .tc .vmem S8x128 .f32) (harg9 : arg9.IsWhole) (arg10 : Memref sig .tc .vmem S10000x128 .f32) (harg10 : arg10.IsWhole) (hc0 : condA i) (hc1 : ¬condB i)
    (x0 : Vec F S400x10000 .f32) (x1 : Vec F S10000x128 .f32) (x2 : Vec F S128x128 .f32) (x3 : Vec F S8x128 .f32) (x4 : Vec F S128x128 .f32) (x5 : Vec F S8x128 .f32) (x6 : Vec F S400x128 .f32) (xs : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare (scrAfter arg10 harg10 i hc0 (suppBlk x0 x1 x2 x3 x4) xs)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    iexists _; isplitr; swap; · iexact HS0
    ipureintro
    unfold scrAfter
    simp only [View.readAt_eq_ld, harg2.read_unread, harg3.read_unread, harg4.read_unread, harg5.read_unread, harg6.read_unread]

set_option maxHeartbeats 1000000 in
/-- Phase two: the inputs and the scratch array are only read, the sink block's buffer is not touched, and the result
    block's buffer is stored whole with the product of the adjacency rows and the scratch array plus the bias. -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S8x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S400x128 .f32) (harg8 : arg8.IsWhole) (arg9 : Memref sig .tc .vmem S8x128 .f32) (harg9 : arg9.IsWhole) (arg10 : Memref sig .tc .vmem S10000x128 .f32) (harg10 : arg10.IsWhole) (hc0 : ¬condA i) (hc1 : condB i)
    (x0 : Vec F S400x10000 .f32) (x1 : Vec F S10000x128 .f32) (x2 : Vec F S128x128 .f32) (x3 : Vec F S8x128 .f32) (x4 : Vec F S128x128 .f32) (x5 : Vec F S8x128 .f32) (xs : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outBlk x0 xs x5) ∗ (∃ d, owns (c : Thread nD τ) arg9 fullShare d) ∗ owns (c : Thread nD τ) arg10 fullShare xs) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (View.read_writes_eq_canon _ _ _ (fun y => ⟨_, List.mem_singleton_self _, View.mem_set_unit_zero zero2 inb_S400x128_S400x128_0_0 y⟩)).trans ?_
      rw [View.canon_unit_zero zero2]
      simp only [View.readAt_eq_ld, harg2.read_unread, harg10.read_unread, harg7.read_unread]
    isplitl [H7]
    · iexists _, _; isplitr; swap; · iexact H7
      ipureintro; rfl
    iexists _; isplitr; · ipureintro; exact harg10.read_unread _
    iexact HS0

end Cert.Kernel.Body

end
-- ==== Proof.DataK.lean ====
import proofs.«154344_g8632884265528_cont_9to1c4b_176_24_alg».proof.Proof.BodyK
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run holds, point by point

The fifty grid points are numbered row by row: points 0–24 are phase one (point `t` fills rows
`400 t … 400 t + 399` of the scratch array), points 25–49 are phase two (point `t` stores the result block of
rows `400 (t - 25) …`). -/

theorem N_eq : cfg0.N = 50 := N_0

/-- Each input window's block at a point, at its literal type. -/
abbrev blk0 (c : Dev nD) (t : Fin cfg0.N) : Vec F S400x10000 .f32 := iblk m c 0 t
abbrev blk1 (c : Dev nD) (t : Fin cfg0.N) : Vec F S10000x128 .f32 := iblk m c 1 t
abbrev blk2 (c : Dev nD) (t : Fin cfg0.N) : Vec F S128x128 .f32 := iblk m c 2 t
abbrev blk3 (c : Dev nD) (t : Fin cfg0.N) : Vec F S8x128 .f32 := iblk m c 3 t
abbrev blk4 (c : Dev nD) (t : Fin cfg0.N) : Vec F S128x128 .f32 := iblk m c 4 t
abbrev blk5 (c : Dev nD) (t : Fin cfg0.N) : Vec F S8x128 .f32 := iblk m c 5 t

/-- The phase-one point that fills row `r` of the scratch array. -/
def ptOfRow (r : Fin 10000) : Fin cfg0.N := ⟨r.val / 400, by rw [N_eq]; omega⟩
/-- Row `r`'s place inside its block of 400 rows. -/
def locOfRow (r : Fin 10000) : Fin 400 := ⟨r.val % 400, Nat.mod_lt _ (by norm_num)⟩

/-- The 400 rows of the second support that phase-one point `t` computes. -/
def suppAt (c : Dev nD) (t : Fin cfg0.N) : FVec F S400x128 .f32 :=
  suppBlk (blk0 m c t) (blk1 m c t) (blk2 m c t) (blk3 m c t) (blk4 m c t)

/-- The whole second support: row `r` is row `r mod 400` of what point `r / 400` computes. -/
def suppArr (c : Dev nD) : Vec F S10000x128 .f32 :=
  fun y => suppAt m c (ptOfRow (y 0)) (ix2 (locOfRow (y 0)) (y 1))

/-- The result block a phase-two point `t` stores: its adjacency rows times the whole second support, plus the bias. -/
def outAt (c : Dev nD) (t : Fin cfg0.N) : FVec F S400x128 .f32 :=
  outBlk (blk0 m c t) (suppArr m c) (blk5 m c t)

/-- The sink window (7) is never read by anything: nothing is said of what it holds. -/
def forgets0 : Fin 8 → Bool := fun w => w.val == 7

/-- The scratch array as a memref. -/
abbrev scM : Memref sig .tc .vmem S10000x128 .f32 := Memref.whole cc0_scratch0

/-- The invariant before point `n`: the scratch array holds the second support on the rows phase one has filled so far
    (rows below `400 · min n 25`), anything elsewhere; and the generator register holds anything. -/
def PhiS (c : Dev nD) (n : ℕ) : sProp 𝕄 :=
  iprop((∃ S : Vec F S10000x128 .f32, ⌜∀ y : S10000x128.Idx, (y 0).val < 400 * min n 25 → S y = suppArr m c y⌝ ∗ owns (c : Thread nD τ) scM fullShare S) ∗ (∃ r, prngReg c r))

/-- The proof data of the pipeline on core `c`: the arrays as the region finds them; after the body each input's buffer at
    its block, the result window's at the block phase two stores, the sink's unnamed; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, h⟩ => Pipeline.Dat.unnamed (cfg := cfg0) ⟨7, h⟩ t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Body

end
-- ==== Proof.ScrSpecK.lean ====
/-
  The scratch array after one phase-one point.

  Phase-one point t overwrites rows 400 t … 400 t + 399 of the scratch array with the 400 rows of the second
  support it computes.  If the array agreed with the whole second support on the rows below 400 t before, it
  agrees with it on the rows below 400 (t + 1) afterwards: a row inside the written block reads the payload, which
  is by definition that row of the second support (row 400 t + x is row x of what point t computes); a row
  outside the block reads what was there before, and, being below 400 (t + 1) and outside the block, lies below 400 t.
-/
import proofs.«154344_g8632884265528_cont_9to1c4b_176_24_alg».proof.Proof.DataK
import Idealize.ShloMosaic.Lib.Writes

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of the scratch rows phase-one point `t` fills. -/
theorem off_closed : ∀ t : Fin cfg0.N, t.val < 25 → (k0_off1 (grid0.coords t) 0 = 400 * t.val ∧ k0_off1 (grid0.coords t) 1 = 0) :=
  (by decide +kernel : ∀ t : Fin grid0.N, t.val < 25 → (k0_off1 (grid0.coords t) 0 = 400 * t.val ∧ k0_off1 (grid0.coords t) 1 = 0))

/-- Row `400 t + x 0`, column `x 1` of the whole second support is entry `x` of the rows point `t` computes. -/
theorem suppArr_of_row (c : Dev nD) (t : Fin cfg0.N) (y : S10000x128.Idx) (x : S400x128.Idx)
    (h0 : (y 0).val = 400 * t.val + (x 0).val) (h1 : (y 1).val = (x 1).val) :
    suppArr m c y = suppAt m c t x := by
  have hx0 : (x 0).val < 400 := (x 0).isLt
  have e1 : ptOfRow (y 0) = t := Fin.ext (by show (y 0).val / 400 = t.val; omega)
  have e2 : (ix2 (locOfRow (y 0)) (y 1) : S400x128.Idx) = x := by
    funext a
    match a with
    | ⟨0, _⟩ => exact Fin.ext (by show (y 0).val % 400 = (x 0).val; omega)
    | ⟨1, _⟩ => exact Fin.ext (by show (y 1).val = (x 1).val; exact h1)
  unfold suppArr
  rw [e1, e2]

theorem scrAfter_spec (c : Dev nD) (t : Fin cfg0.N) (ht : t.val < 25) (hcA : condA (grid0.coords t)) (S : Vec F S10000x128 .f32)
    (hS : ∀ y : S10000x128.Idx, (y 0).val < 400 * t.val → S y = suppArr m c y) :
    ∀ y : S10000x128.Idx, (y 0).val < 400 * (t.val + 1) →
      scrAfter scM (Memref.isWhole_whole _) (grid0.coords t) hcA (suppAt m c t) S y = suppArr m c y := by
  intro y hy
  obtain ⟨o0, o1⟩ := off_closed t ht
  unfold scrAfter
  by_cases hmem : y ∈ (rScr (grid0.coords t) hcA).set
  · refine View.read_writes_apply_of_pieces _ _ (suppArr m c) _ ?_ y ⟨_, List.mem_singleton_self _, hmem⟩
    intro p hp x
    obtain rfl := List.mem_singleton.1 hp
    refine (suppArr_of_row m c t _ x ?_ ?_).symm
    · rw [Rect.emb_apply, Rect.off_unit, Rect.stride_unit, o0, Nat.one_mul]
    · rw [Rect.emb_apply, Rect.off_unit, Rect.stride_unit, o1, Nat.one_mul, Nat.zero_add]
  · rw [View.read_writes_apply_of_forall_not_mem _ _ y _ (fun p hp => by obtain rfl := List.mem_singleton.1 hp; exact hmem)]
    rw [Memref.IsWhole.read_unread (m := scM) (Memref.isWhole_whole _) S]
    apply hS
    rw [Rect.mem_set_unit, Fin.forall_fin_two, o0, o1] at hmem
    have hy1 : (y 1).val < 128 := (y 1).isLt
    have s0 : S400x128.size 0 = 400 := rfl
    have s1 : S400x128.size 1 = 128 := rfl
    rw [s0, s1] at hmem
    omega

end Cert.Kernel.Body

end
-- ==== Proof.FrameK.lean ====
import proofs.«154344_g8632884265528_cont_9to1c4b_176_24_alg».proof.Proof.DataK
import proofs.«154344_g8632884265528_cont_9to1c4b_176_24_alg».proof.Proof.ScrSpecK
import Idealize.ShloMosaic.Lib.Pipeline.Cells

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the fifty points -/

/-- Phase one is the first 25 points, -/
theorem hcondA : ∀ t : Fin cfg0.N, condA (grid0.coords t) ↔ t.val < 25 :=
  (by decide +kernel : ∀ t : Fin grid0.N, condA (grid0.coords t) ↔ t.val < 25)
/-- phase two the last 25. -/
theorem hcondB : ∀ t : Fin cfg0.N, condB (grid0.coords t) ↔ 25 ≤ t.val :=
  (by decide +kernel : ∀ t : Fin grid0.N, condB (grid0.coords t) ↔ 25 ≤ t.val)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The result window is idle exactly in phase one, and is written back exactly at the points of phase two. -/
theorem idle6 : ∀ t : Fin cfg0.N, cfg0.idle 6 (grid0.coords t) = decide (t.val < 25) :=
  (by decide +kernel : ∀ t : Fin grid0.N, cfg0.idle 6 (grid0.coords t) = decide (t.val < 25))
theorem flush6 : ∀ t : Fin cfg0.N, (cfg0.win 6).flush t = decide (25 ≤ t.val) :=
  (by decide +kernel : ∀ t : Fin grid0.N, win0_6.flush t = decide (25 ≤ t.val))

/-- Each window's current staging memref at point `t`, and its wholeness. -/
abbrev ms0_0 (t : Fin cfg0.N) : Memref sig .tc .vmem S400x10000 .f32 := win0_0.stage (cfg0.slots t 0)
abbrev ms0_1 (t : Fin cfg0.N) : Memref sig .tc .vmem S10000x128 .f32 := win0_1.stage (cfg0.slots t 1)
abbrev ms0_2 (t : Fin cfg0.N) : Memref sig .tc .vmem S128x128 .f32 := win0_2.stage (cfg0.slots t 2)
abbrev ms0_3 (t : Fin cfg0.N) : Memref sig .tc .vmem S8x128 .f32 := win0_3.stage (cfg0.slots t 3)
abbrev ms0_4 (t : Fin cfg0.N) : Memref sig .tc .vmem S128x128 .f32 := win0_4.stage (cfg0.slots t 4)
abbrev ms0_5 (t : Fin cfg0.N) : Memref sig .tc .vmem S8x128 .f32 := win0_5.stage (cfg0.slots t 5)
abbrev ms0_6 (t : Fin cfg0.N) : Memref sig .tc .vmem S400x128 .f32 := win0_6.stage (cfg0.slots t 6)
abbrev ms0_7 (t : Fin cfg0.N) : Memref sig .tc .vmem S8x128 .f32 := win0_7.stage (cfg0.slots t 7)

/-- The class invariant of the launch: the scratch array at some contents and the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d))

set_option maxHeartbeats 1600000 in
/-- The body at any point.  In phase one the invariant hands over the scratch array agreeing with the second support on
    the rows filled so far, and takes it back agreeing on 400 rows more; the result window's buffer goes through
    untouched.  In phase two every row has been filled, so the scratch array IS the second support, and the result
    window's buffer comes back holding the block the proof data names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rewrite [show (dats m 0 c).Φ t.succ = PhiS m c (t.val + 1) from rfl,
    show (dats m 0 c).Φ t.castSucc = PhiS m c t.val from rfl,
    show (dats m 0 c).owesAt () t.succ = (dats m 0 c).owesAt () t.castSucc from rfl]
  rewrite [show (dats m 0 c).leavesExact 0 t = owns (c : Thread nD τ) (ms0_0 t) fullShare ((dats m 0 c).after 0 t) from by
    unfold Dat.leavesExact; rw [liveAt0_0 t], after0_0]
  rewrite [show (dats m 0 c).leavesExact 1 t = owns (c : Thread nD τ) (ms0_1 t) fullShare ((dats m 0 c).after 1 t) from by
    unfold Dat.leavesExact; rw [liveAt0_1 t], after0_1]
  rewrite [show (dats m 0 c).leavesExact 2 t = owns (c : Thread nD τ) (ms0_2 t) fullShare ((dats m 0 c).after 2 t) from by
    unfold Dat.leavesExact; rw [liveAt0_2 t], after0_2]
  rewrite [show (dats m 0 c).leavesExact 3 t = owns (c : Thread nD τ) (ms0_3 t) fullShare ((dats m 0 c).after 3 t) from by
    unfold Dat.leavesExact; rw [liveAt0_3 t], after0_3]
  rewrite [show (dats m 0 c).leavesExact 4 t = owns (c : Thread nD τ) (ms0_4 t) fullShare ((dats m 0 c).after 4 t) from by
    unfold Dat.leavesExact; rw [liveAt0_4 t], after0_4]
  rewrite [show (dats m 0 c).leavesExact 5 t = owns (c : Thread nD τ) (ms0_5 t) fullShare ((dats m 0 c).after 5 t) from by
    unfold Dat.leavesExact; rw [liveAt0_5 t], after0_5]
  by_cases h0 : t.val < 25
  · have hcA : condA (grid0.coords t) := (hcondA t).mpr h0
    have hcB : ¬condB (grid0.coords t) := fun h => absurd ((hcondB t).mp h) (by omega)
    rewrite [Dat.leavesExact_idle (dats m 0 c) 6 t (by rw [idle6 t]; exact decide_eq_true h0)
      (by rw [flush6 t]; exact decide_eq_false (by omega))]
    unfold PhiS
    iintro ⟨⟨⟨%S, %hS, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ _ _ hcA hcB (iblk m c 0 t) (iblk m c 1 t) (iblk m c 2 t) (iblk m c 3 t) (iblk m c 4 t) (iblk m c 5 t) ((dats m 0 c).before 6 t d6) S) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, H7, HS0⟩
    isplitl [HS0 Hg]
    · isplitl [HS0]
      · iexists _; isplitr; swap; · iexact HS0
        ipureintro
        intro y hy
        rw [Nat.min_eq_left (by omega : t.val + 1 ≤ 25)] at hy
        exact scrAfter_spec m c t h0 hcA S (fun y' hy' => hS y' (by rw [Nat.min_eq_left (by omega : t.val ≤ 25)]; exact hy')) y hy
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexact H7
  · have h1 : 25 ≤ t.val := Nat.le_of_not_lt h0
    have hcA : ¬condA (grid0.coords t) := fun h => h0 ((hcondA t).mp h)
    have hcB : condB (grid0.coords t) := (hcondB t).mpr h1
    rewrite [show (dats m 0 c).leavesExact 6 t = owns (c : Thread nD τ) (ms0_6 t) fullShare ((dats m 0 c).after 6 t) from by
      unfold Dat.leavesExact; rw [idle6 t, decide_eq_false h0], after0_6]
    unfold PhiS
    iintro ⟨⟨⟨%S, %hS, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hSeq : S = suppArr m c := funext fun y => hS y (by
      have hy : (y 0).val < 10000 := (y 0).isLt
      rw [Nat.min_eq_right h1]; omega)
    subst hSeq
    iapply ((runB c (grid0.coords t) _ _ _ _ _ _ _ _ _ _ _ _ _ _ _ _ _ _ hcA hcB (iblk m c 0 t) (iblk m c 1 t) (iblk m c 2 t) (iblk m c 3 t) (iblk m c 4 t) (iblk m c 5 t) (suppArr m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexists _; isplitr; swap; · iexact HS0
        ipureintro
        exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point, the sink window forgotten. -/
theorem body_obligation (c : Dev nD) : BodyObligation (dats (F := F) m 0 c) (defs₀ (F := F)) Variants.none () Set.univ forgets0 := fun t => by
  rw [bigSep_W0, bigSep_W0]
  exact sound_body m c t

/-- Before the first point nothing is asked of the scratch array. -/
theorem hin (c : Dev nD) : Pipeline.ΦA spec0 c ⊢ (dats m 0 c).Φ 0 := by
  rewrite [show (dats m 0 c).Φ 0 = PhiS m c 0 from rfl, PhiA0_eq]
  unfold PhiS
  iintro ⟨⟨%d, H⟩, Hg⟩
  isplitl [H]
  · iexists d; isplitr
    · ipureintro; intro y hy; exact absurd hy (by simp)
    iexact H
  iexact Hg

/-- After the last point what the scratch array holds is forgotten again. -/
theorem hout (c : Dev nD) : (dats m 0 c).Φ (Fin.last cfg0.N) ⊢ Pipeline.ΦA spec0 c := by
  rewrite [show (dats m 0 c).Φ (Fin.last cfg0.N) = PhiS m c cfg0.N from rfl, PhiA0_eq]
  unfold PhiS
  iintro ⟨⟨%S, -, H⟩, Hg⟩
  isplitl [H]
  · iexists S; iexact H
  iexact Hg

/-! ## The run -/

set_option backward.isDefEq.respectTransparency.types false in
/-- Every weakly fair execution of @main terminates; every input array of the pipeline ends unchanged, the result array
    holds what the write-backs of phase two leave (the sink array anything), every other buffer its region-entry contents. -/
theorem run_main : θ_run defs (onTc (τ := τ) (main (F := F))) (s₀ m ρ) (Pipeline.RDat.FramePost (cfgs 0) (fun c => (dats m 0 c).toRForget forgets0) (V m)) :=
  Pipeline.RDat.θ_run_frame_track cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hin := hin m) (hout := hout m)

/-- The run with the result array named and the arguments unchanged. -/
theorem run_named : θ_run defs (onTc (τ := τ) (main (F := F))) ⟨m, fun _ => 0, ρ⟩ (fun r => ∀ c : Dev nD,
      r.2.mem ((c.tc : Thread nD τ).loc main_v4_0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.RDat.FramePost (cfgs 0) (fun c => (dats m 0 c).toRForget forgets0) (V m) r) c => ⟨((dats m 0 c).toRForget_arrAt_iff (fgt := forgets0) (w := 6) rfl _ _).mp ((h c).1 6),
      (Pipeline.RDat.FramePost.arr_in (cfg₁ := cfgs 0) h c 1 rfl).trans ((A_eq m c 1).trans (V_main_arg0 m c)),
      (Pipeline.RDat.FramePost.arr_in (cfg₁ := cfgs 0) h c 0 rfl).trans ((A_eq m c 0).trans (V_main_arg1 m c)),
      (Pipeline.RDat.FramePost.arr_in (cfg₁ := cfgs 0) h c 2 rfl).trans ((A_eq m c 2).trans (V_main_arg2 m c)),
      ((h c).2 main_arg3 (Pipeline.mem_restRefs_of main_arg3 (by decide) (by decide))).trans (V_main_arg3 m c),
      (Pipeline.RDat.FramePost.arr_in (cfg₁ := cfgs 0) h c 4 rfl).trans ((A_eq m c 4).trans (V_main_arg4 m c)),
      ((h c).2 main_arg5 (Pipeline.mem_restRefs_of main_arg5 (by decide) (by decide))).trans (V_main_arg5 m c)⟩) (run_main m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Body

end
-- ==== Proof.Body.lean ====
import proofs.«154344_g8632884265528_cont_9to1c4b_176_24_alg».proof.Proof.Gen.KernelIdeal.Frame
import proofs.«154344_g8632884265528_cont_9to1c4b_176_24_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two phases of the body

The grid is 2 × 25.  At a point of the first row (phase one) the body multiplies the point's 400 rows of the
adjacency matrix through the two layers up to the second support and stores those 400 rows into the scratch
array; at a point of the second row (phase two) it multiplies the same 400 rows of the adjacency matrix with
the WHOLE scratch array, adds the bias, and stores the result block. -/

/-- The zero offsets of a rank-two rectangle. -/
theorem zero2 : (![0, 0] : Fin 2 → Nat) = fun _ => 0 := by funext a; fin_cases a <;> rfl

/-- The body is in phase one. -/
abbrev condA (i : grid0.Coords) : Prop := k0_cond1 i = 1#1
/-- The body is in phase two. -/
abbrev condB (i : grid0.Coords) : Prop := k0_cond2 i = 1#1

/-- The rectangles the body loads and stores through. -/
abbrev rAdj : Rect S400x10000 := Rect.unit (s := S400x10000) ![0, 0] S400x10000.size inb_S400x10000_S400x10000_0_0
abbrev rBig : Rect S10000x128 := Rect.unit (s := S10000x128) ![0, 0] S10000x128.size inb_S10000x128_S10000x128_0_0
abbrev rSq : Rect S128x128 := Rect.unit (s := S128x128) ![0, 0] S128x128.size inb_S128x128_S128x128_0_0
abbrev rRow : Rect S8x128 := Rect.unit (s := S8x128) ![0, 0] S1x128.size inb_S8x128_S1x128_0_0
abbrev rOut : Rect S400x128 := Rect.unit (s := S400x128) ![0, 0] S400x128.size inb_S400x128_S400x128_0_0
/-- The 400 rows of the scratch array that phase one fills at grid coordinates `i`. -/
abbrev rScr (i : grid0.Coords) (h : condA i) : Rect S10000x128 := Rect.unit (s := S10000x128) (k0_off1 i) S400x128.size (k0_off1_inb i h)

/-- The 400 rows of the second support computed in phase one from the blocks the body loads. -/
abbrev suppBlk (x0 : Vec F S400x10000 .f32) (x1 : Vec F S10000x128 .f32) (x2 : Vec F S128x128 .f32) (x3 : Vec F S8x128 .f32) (x4 : Vec F S128x128 .f32) : FVec F S400x128 .f32 :=
  k0_pay1 (View.ld x0 rAdj) (View.ld x1 rBig) (View.ld x2 rSq) (View.ld x3 rRow) (View.ld x4 rSq)

/-- The result block computed in phase two from the adjacency rows, the scratch array and the bias rows. -/
abbrev outBlk (x0 : Vec F S400x10000 .f32) (xs : Vec F S10000x128 .f32) (x5 : Vec F S8x128 .f32) : FVec F S400x128 .f32 :=
  k0_pay3 (View.ld x0 rAdj) (View.ld xs rBig) (View.ld x5 rRow)

/-- The scratch array after phase one at coordinates `i`: its prior contents `xs` with the point's 400 rows overwritten. -/
def scrAfter (arg10 : Memref sig .tc .vmem S10000x128 .f32) (harg10 : arg10.IsWhole) (i : grid0.Coords) (h : condA i)
    (P : FVec F S400x128 .f32) (xs : Vec F S10000x128 .f32) : Vec F S10000x128 .f32 :=
  arg10.view.read (Elt F) (arg10.view.writes (Elt F) (harg10.unread xs) [⟨rScr i h, P⟩])

set_option maxHeartbeats 1000000 in
/-- Phase one: the inputs are only read, the result block's buffer is not touched, the sink block is stored into, and
    the scratch array has the point's 400 rows overwritten by the second support's rows. -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S8x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S400x128 .f32) (harg8 : arg8.IsWhole) (arg9 : Memref sig .tc .vmem S8x128 .f32) (harg9 : arg9.IsWhole) (arg10 : Memref sig .tc .vmem S10000x128 .f32) (harg10 : arg10.IsWhole) (hc0 : condA i) (hc1 : ¬condB i)
    (x0 : Vec F S400x10000 .f32) (x1 : Vec F S10000x128 .f32) (x2 : Vec F S128x128 .f32) (x3 : Vec F S8x128 .f32) (x4 : Vec F S128x128 .f32) (x5 : Vec F S8x128 .f32) (x6 : Vec F S400x128 .f32) (xs : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare (scrAfter arg10 harg10 i hc0 (suppBlk x0 x1 x2 x3 x4) xs)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    iexists _; isplitr; swap; · iexact HS0
    ipureintro
    unfold scrAfter
    simp only [View.readAt_eq_ld, harg2.read_unread, harg3.read_unread, harg4.read_unread, harg5.read_unread, harg6.read_unread]

set_option maxHeartbeats 1000000 in
/-- Phase two: the inputs and the scratch array are only read, the sink block's buffer is not touched, and the result
    block's buffer is stored whole with the product of the adjacency rows and the scratch array plus the bias. -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S8x128 .f32) (harg5 : arg5.IsWhole) (arg6 : Memref sig .tc .vmem S128x128 .f32) (harg6 : arg6.IsWhole) (arg7 : Memref sig .tc .vmem S8x128 .f32) (harg7 : arg7.IsWhole) (arg8 : Memref sig .tc .vmem S400x128 .f32) (harg8 : arg8.IsWhole) (arg9 : Memref sig .tc .vmem S8x128 .f32) (harg9 : arg9.IsWhole) (arg10 : Memref sig .tc .vmem S10000x128 .f32) (harg10 : arg10.IsWhole) (hc0 : ¬condA i) (hc1 : condB i)
    (x0 : Vec F S400x10000 .f32) (x1 : Vec F S10000x128 .f32) (x2 : Vec F S128x128 .f32) (x3 : Vec F S8x128 .f32) (x4 : Vec F S128x128 .f32) (x5 : Vec F S8x128 .f32) (xs : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outBlk x0 xs x5) ∗ (∃ d, owns (c : Thread nD τ) arg9 fullShare d) ∗ owns (c : Thread nD τ) arg10 fullShare xs) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (View.read_writes_eq_canon _ _ _ (fun y => ⟨_, List.mem_singleton_self _, View.mem_set_unit_zero zero2 inb_S400x128_S400x128_0_0 y⟩)).trans ?_
      rw [View.canon_unit_zero zero2]
      simp only [View.readAt_eq_ld, harg2.read_unread, harg10.read_unread, harg7.read_unread]
    isplitl [H7]
    · iexists _, _; isplitr; swap; · iexact H7
      ipureintro; rfl
    iexists _; isplitr; · ipureintro; exact harg10.read_unread _
    iexact HS0

end Cert.KernelIdeal.Body

end
-- ==== Proof.Data.lean ====
import proofs.«154344_g8632884265528_cont_9to1c4b_176_24_alg».proof.Proof.Body
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run holds, point by point

The fifty grid points are numbered row by row: points 0–24 are phase one (point `t` fills rows
`400 t … 400 t + 399` of the scratch array), points 25–49 are phase two (point `t` stores the result block of
rows `400 (t - 25) …`). -/

theorem N_eq : cfg0.N = 50 := N_0

/-- Each input window's block at a point, at its literal type. -/
abbrev blk0 (c : Dev nD) (t : Fin cfg0.N) : Vec F S400x10000 .f32 := iblk m c 0 t
abbrev blk1 (c : Dev nD) (t : Fin cfg0.N) : Vec F S10000x128 .f32 := iblk m c 1 t
abbrev blk2 (c : Dev nD) (t : Fin cfg0.N) : Vec F S128x128 .f32 := iblk m c 2 t
abbrev blk3 (c : Dev nD) (t : Fin cfg0.N) : Vec F S8x128 .f32 := iblk m c 3 t
abbrev blk4 (c : Dev nD) (t : Fin cfg0.N) : Vec F S128x128 .f32 := iblk m c 4 t
abbrev blk5 (c : Dev nD) (t : Fin cfg0.N) : Vec F S8x128 .f32 := iblk m c 5 t

/-- The phase-one point that fills row `r` of the scratch array. -/
def ptOfRow (r : Fin 10000) : Fin cfg0.N := ⟨r.val / 400, by rw [N_eq]; omega⟩
/-- Row `r`'s place inside its block of 400 rows. -/
def locOfRow (r : Fin 10000) : Fin 400 := ⟨r.val % 400, Nat.mod_lt _ (by norm_num)⟩

/-- The 400 rows of the second support that phase-one point `t` computes. -/
def suppAt (c : Dev nD) (t : Fin cfg0.N) : FVec F S400x128 .f32 :=
  suppBlk (blk0 m c t) (blk1 m c t) (blk2 m c t) (blk3 m c t) (blk4 m c t)

/-- The whole second support: row `r` is row `r mod 400` of what point `r / 400` computes. -/
def suppArr (c : Dev nD) : Vec F S10000x128 .f32 :=
  fun y => suppAt m c (ptOfRow (y 0)) (ix2 (locOfRow (y 0)) (y 1))

/-- The result block a phase-two point `t` stores: its adjacency rows times the whole second support, plus the bias. -/
def outAt (c : Dev nD) (t : Fin cfg0.N) : FVec F S400x128 .f32 :=
  outBlk (blk0 m c t) (suppArr m c) (blk5 m c t)

/-- The sink window (7) is never read by anything: nothing is said of what it holds. -/
def forgets0 : Fin 8 → Bool := fun w => w.val == 7

/-- The scratch array as a memref. -/
abbrev scM : Memref sig .tc .vmem S10000x128 .f32 := Memref.whole cc0_scratch0

/-- The invariant before point `n`: the scratch array holds the second support on the rows phase one has filled so far
    (rows below `400 · min n 25`), anything elsewhere; and the generator register holds anything. -/
def PhiS (c : Dev nD) (n : ℕ) : sProp 𝕄 :=
  iprop((∃ S : Vec F S10000x128 .f32, ⌜∀ y : S10000x128.Idx, (y 0).val < 400 * min n 25 → S y = suppArr m c y⌝ ∗ owns (c : Thread nD τ) scM fullShare S) ∗ (∃ r, prngReg c r))

/-- The proof data of the pipeline on core `c`: the arrays as the region finds them; after the body each input's buffer at
    its block, the result window's at the block phase two stores, the sink's unnamed; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, h⟩ => Pipeline.Dat.unnamed (cfg := cfg0) ⟨7, h⟩ t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Body

end
-- ==== Proof.ScrSpec.lean ====
/-
  The scratch array after one phase-one point.

  Phase-one point t overwrites rows 400 t … 400 t + 399 of the scratch array with the 400 rows of the second
  support it computes.  If the array agreed with the whole second support on the rows below 400 t before, it
  agrees with it on the rows below 400 (t + 1) afterwards: a row inside the written block reads the payload, which
  is by definition that row of the second support (row 400 t + x is row x of what point t computes); a row
  outside the block reads what was there before, and, being below 400 (t + 1) and outside the block, lies below 400 t.
-/
import proofs.«154344_g8632884265528_cont_9to1c4b_176_24_alg».proof.Proof.Data
import Idealize.ShloMosaic.Lib.Writes

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of the scratch rows phase-one point `t` fills. -/
theorem off_closed : ∀ t : Fin cfg0.N, t.val < 25 → (k0_off1 (grid0.coords t) 0 = 400 * t.val ∧ k0_off1 (grid0.coords t) 1 = 0) :=
  (by decide +kernel : ∀ t : Fin grid0.N, t.val < 25 → (k0_off1 (grid0.coords t) 0 = 400 * t.val ∧ k0_off1 (grid0.coords t) 1 = 0))

/-- Row `400 t + x 0`, column `x 1` of the whole second support is entry `x` of the rows point `t` computes. -/
theorem suppArr_of_row (c : Dev nD) (t : Fin cfg0.N) (y : S10000x128.Idx) (x : S400x128.Idx)
    (h0 : (y 0).val = 400 * t.val + (x 0).val) (h1 : (y 1).val = (x 1).val) :
    suppArr m c y = suppAt m c t x := by
  have hx0 : (x 0).val < 400 := (x 0).isLt
  have e1 : ptOfRow (y 0) = t := Fin.ext (by show (y 0).val / 400 = t.val; omega)
  have e2 : (ix2 (locOfRow (y 0)) (y 1) : S400x128.Idx) = x := by
    funext a
    match a with
    | ⟨0, _⟩ => exact Fin.ext (by show (y 0).val % 400 = (x 0).val; omega)
    | ⟨1, _⟩ => exact Fin.ext (by show (y 1).val = (x 1).val; exact h1)
  unfold suppArr
  rw [e1, e2]

theorem scrAfter_spec (c : Dev nD) (t : Fin cfg0.N) (ht : t.val < 25) (hcA : condA (grid0.coords t)) (S : Vec F S10000x128 .f32)
    (hS : ∀ y : S10000x128.Idx, (y 0).val < 400 * t.val → S y = suppArr m c y) :
    ∀ y : S10000x128.Idx, (y 0).val < 400 * (t.val + 1) →
      scrAfter scM (Memref.isWhole_whole _) (grid0.coords t) hcA (suppAt m c t) S y = suppArr m c y := by
  intro y hy
  obtain ⟨o0, o1⟩ := off_closed t ht
  unfold scrAfter
  by_cases hmem : y ∈ (rScr (grid0.coords t) hcA).set
  · refine View.read_writes_apply_of_pieces _ _ (suppArr m c) _ ?_ y ⟨_, List.mem_singleton_self _, hmem⟩
    intro p hp x
    obtain rfl := List.mem_singleton.1 hp
    refine (suppArr_of_row m c t _ x ?_ ?_).symm
    · rw [Rect.emb_apply, Rect.off_unit, Rect.stride_unit, o0, Nat.one_mul]
    · rw [Rect.emb_apply, Rect.off_unit, Rect.stride_unit, o1, Nat.one_mul, Nat.zero_add]
  · rw [View.read_writes_apply_of_forall_not_mem _ _ y _ (fun p hp => by obtain rfl := List.mem_singleton.1 hp; exact hmem)]
    rw [Memref.IsWhole.read_unread (m := scM) (Memref.isWhole_whole _) S]
    apply hS
    rw [Rect.mem_set_unit, Fin.forall_fin_two, o0, o1] at hmem
    have hy1 : (y 1).val < 128 := (y 1).isLt
    have s0 : S400x128.size 0 = 400 := rfl
    have s1 : S400x128.size 1 = 128 := rfl
    rw [s0, s1] at hmem
    omega

end Cert.KernelIdeal.Body

end
-- ==== Proof.Frame.lean ====
import proofs.«154344_g8632884265528_cont_9to1c4b_176_24_alg».proof.Proof.Data
import proofs.«154344_g8632884265528_cont_9to1c4b_176_24_alg».proof.Proof.ScrSpec
import Idealize.ShloMosaic.Lib.Pipeline.Cells

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the fifty points -/

/-- Phase one is the first 25 points, -/
theorem hcondA : ∀ t : Fin cfg0.N, condA (grid0.coords t) ↔ t.val < 25 :=
  (by decide +kernel : ∀ t : Fin grid0.N, condA (grid0.coords t) ↔ t.val < 25)
/-- phase two the last 25. -/
theorem hcondB : ∀ t : Fin cfg0.N, condB (grid0.coords t) ↔ 25 ≤ t.val :=
  (by decide +kernel : ∀ t : Fin grid0.N, condB (grid0.coords t) ↔ 25 ≤ t.val)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The result window is idle exactly in phase one, and is written back exactly at the points of phase two. -/
theorem idle6 : ∀ t : Fin cfg0.N, cfg0.idle 6 (grid0.coords t) = decide (t.val < 25) :=
  (by decide +kernel : ∀ t : Fin grid0.N, cfg0.idle 6 (grid0.coords t) = decide (t.val < 25))
theorem flush6 : ∀ t : Fin cfg0.N, (cfg0.win 6).flush t = decide (25 ≤ t.val) :=
  (by decide +kernel : ∀ t : Fin grid0.N, win0_6.flush t = decide (25 ≤ t.val))

/-- Each window's current staging memref at point `t`, and its wholeness. -/
abbrev ms0_0 (t : Fin cfg0.N) : Memref sig .tc .vmem S400x10000 .f32 := win0_0.stage (cfg0.slots t 0)
abbrev ms0_1 (t : Fin cfg0.N) : Memref sig .tc .vmem S10000x128 .f32 := win0_1.stage (cfg0.slots t 1)
abbrev ms0_2 (t : Fin cfg0.N) : Memref sig .tc .vmem S128x128 .f32 := win0_2.stage (cfg0.slots t 2)
abbrev ms0_3 (t : Fin cfg0.N) : Memref sig .tc .vmem S8x128 .f32 := win0_3.stage (cfg0.slots t 3)
abbrev ms0_4 (t : Fin cfg0.N) : Memref sig .tc .vmem S128x128 .f32 := win0_4.stage (cfg0.slots t 4)
abbrev ms0_5 (t : Fin cfg0.N) : Memref sig .tc .vmem S8x128 .f32 := win0_5.stage (cfg0.slots t 5)
abbrev ms0_6 (t : Fin cfg0.N) : Memref sig .tc .vmem S400x128 .f32 := win0_6.stage (cfg0.slots t 6)
abbrev ms0_7 (t : Fin cfg0.N) : Memref sig .tc .vmem S8x128 .f32 := win0_7.stage (cfg0.slots t 7)

/-- The class invariant of the launch: the scratch array at some contents and the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d))

set_option maxHeartbeats 1600000 in
/-- The body at any point.  In phase one the invariant hands over the scratch array agreeing with the second support on
    the rows filled so far, and takes it back agreeing on 400 rows more; the result window's buffer goes through
    untouched.  In phase two every row has been filled, so the scratch array IS the second support, and the result
    window's buffer comes back holding the block the proof data names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rewrite [show (dats m 0 c).Φ t.succ = PhiS m c (t.val + 1) from rfl,
    show (dats m 0 c).Φ t.castSucc = PhiS m c t.val from rfl,
    show (dats m 0 c).owesAt () t.succ = (dats m 0 c).owesAt () t.castSucc from rfl]
  rewrite [show (dats m 0 c).leavesExact 0 t = owns (c : Thread nD τ) (ms0_0 t) fullShare ((dats m 0 c).after 0 t) from by
    unfold Dat.leavesExact; rw [liveAt0_0 t], after0_0]
  rewrite [show (dats m 0 c).leavesExact 1 t = owns (c : Thread nD τ) (ms0_1 t) fullShare ((dats m 0 c).after 1 t) from by
    unfold Dat.leavesExact; rw [liveAt0_1 t], after0_1]
  rewrite [show (dats m 0 c).leavesExact 2 t = owns (c : Thread nD τ) (ms0_2 t) fullShare ((dats m 0 c).after 2 t) from by
    unfold Dat.leavesExact; rw [liveAt0_2 t], after0_2]
  rewrite [show (dats m 0 c).leavesExact 3 t = owns (c : Thread nD τ) (ms0_3 t) fullShare ((dats m 0 c).after 3 t) from by
    unfold Dat.leavesExact; rw [liveAt0_3 t], after0_3]
  rewrite [show (dats m 0 c).leavesExact 4 t = owns (c : Thread nD τ) (ms0_4 t) fullShare ((dats m 0 c).after 4 t) from by
    unfold Dat.leavesExact; rw [liveAt0_4 t], after0_4]
  rewrite [show (dats m 0 c).leavesExact 5 t = owns (c : Thread nD τ) (ms0_5 t) fullShare ((dats m 0 c).after 5 t) from by
    unfold Dat.leavesExact; rw [liveAt0_5 t], after0_5]
  by_cases h0 : t.val < 25
  · have hcA : condA (grid0.coords t) := (hcondA t).mpr h0
    have hcB : ¬condB (grid0.coords t) := fun h => absurd ((hcondB t).mp h) (by omega)
    rewrite [Dat.leavesExact_idle (dats m 0 c) 6 t (by rw [idle6 t]; exact decide_eq_true h0)
      (by rw [flush6 t]; exact decide_eq_false (by omega))]
    unfold PhiS
    iintro ⟨⟨⟨%S, %hS, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ _ _ hcA hcB (iblk m c 0 t) (iblk m c 1 t) (iblk m c 2 t) (iblk m c 3 t) (iblk m c 4 t) (iblk m c 5 t) ((dats m 0 c).before 6 t d6) S) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, H7, HS0⟩
    isplitl [HS0 Hg]
    · isplitl [HS0]
      · iexists _; isplitr; swap; · iexact HS0
        ipureintro
        intro y hy
        rw [Nat.min_eq_left (by omega : t.val + 1 ≤ 25)] at hy
        exact scrAfter_spec m c t h0 hcA S (fun y' hy' => hS y' (by rw [Nat.min_eq_left (by omega : t.val ≤ 25)]; exact hy')) y hy
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexact H7
  · have h1 : 25 ≤ t.val := Nat.le_of_not_lt h0
    have hcA : ¬condA (grid0.coords t) := fun h => h0 ((hcondA t).mp h)
    have hcB : condB (grid0.coords t) := (hcondB t).mpr h1
    rewrite [show (dats m 0 c).leavesExact 6 t = owns (c : Thread nD τ) (ms0_6 t) fullShare ((dats m 0 c).after 6 t) from by
      unfold Dat.leavesExact; rw [idle6 t, decide_eq_false h0], after0_6]
    unfold PhiS
    iintro ⟨⟨⟨%S, %hS, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hSeq : S = suppArr m c := funext fun y => hS y (by
      have hy : (y 0).val < 10000 := (y 0).isLt
      rw [Nat.min_eq_right h1]; omega)
    subst hSeq
    iapply ((runB c (grid0.coords t) _ _ _ _ _ _ _ _ _ _ _ _ _ _ _ _ _ _ hcA hcB (iblk m c 0 t) (iblk m c 1 t) (iblk m c 2 t) (iblk m c 3 t) (iblk m c 4 t) (iblk m c 5 t) (suppArr m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexists _; isplitr; swap; · iexact HS0
        ipureintro
        exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point, the sink window forgotten. -/
theorem body_obligation (c : Dev nD) : BodyObligation (dats (F := F) m 0 c) (defs₀ (F := F)) Variants.none () Set.univ forgets0 := fun t => by
  rw [bigSep_W0, bigSep_W0]
  exact sound_body m c t

/-- Before the first point nothing is asked of the scratch array. -/
theorem hin (c : Dev nD) : Pipeline.ΦA spec0 c ⊢ (dats m 0 c).Φ 0 := by
  rewrite [show (dats m 0 c).Φ 0 = PhiS m c 0 from rfl, PhiA0_eq]
  unfold PhiS
  iintro ⟨⟨%d, H⟩, Hg⟩
  isplitl [H]
  · iexists d; isplitr
    · ipureintro; intro y hy; exact absurd hy (by simp)
    iexact H
  iexact Hg

/-- After the last point what the scratch array holds is forgotten again. -/
theorem hout (c : Dev nD) : (dats m 0 c).Φ (Fin.last cfg0.N) ⊢ Pipeline.ΦA spec0 c := by
  rewrite [show (dats m 0 c).Φ (Fin.last cfg0.N) = PhiS m c cfg0.N from rfl, PhiA0_eq]
  unfold PhiS
  iintro ⟨⟨%S, -, H⟩, Hg⟩
  isplitl [H]
  · iexists S; iexact H
  iexact Hg

/-! ## The run -/

set_option backward.isDefEq.respectTransparency.types false in
/-- Every weakly fair execution of @main terminates; every input array of the pipeline ends unchanged, the result array
    holds what the write-backs of phase two leave (the sink array anything), every other buffer its region-entry contents. -/
theorem run_main : θ_run defs (onTc (τ := τ) (main (F := F))) (s₀ m ρ) (Pipeline.RDat.FramePost (cfgs 0) (fun c => (dats m 0 c).toRForget forgets0) (V m)) :=
  Pipeline.RDat.θ_run_frame_track cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hin := hin m) (hout := hout m)

/-- The run with the result array named and the arguments unchanged. -/
theorem run_named : θ_run defs (onTc (τ := τ) (main (F := F))) ⟨m, fun _ => 0, ρ⟩ (fun r => ∀ c : Dev nD,
      r.2.mem ((c.tc : Thread nD τ).loc main_v4_0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.RDat.FramePost (cfgs 0) (fun c => (dats m 0 c).toRForget forgets0) (V m) r) c => ⟨((dats m 0 c).toRForget_arrAt_iff (fgt := forgets0) (w := 6) rfl _ _).mp ((h c).1 6),
      (Pipeline.RDat.FramePost.arr_in (cfg₁ := cfgs 0) h c 1 rfl).trans ((A_eq m c 1).trans (V_main_arg0 m c)),
      (Pipeline.RDat.FramePost.arr_in (cfg₁ := cfgs 0) h c 0 rfl).trans ((A_eq m c 0).trans (V_main_arg1 m c)),
      (Pipeline.RDat.FramePost.arr_in (cfg₁ := cfgs 0) h c 2 rfl).trans ((A_eq m c 2).trans (V_main_arg2 m c)),
      ((h c).2 main_arg3 (Pipeline.mem_restRefs_of main_arg3 (by decide) (by decide))).trans (V_main_arg3 m c),
      (Pipeline.RDat.FramePost.arr_in (cfg₁ := cfgs 0) h c 4 rfl).trans ((A_eq m c 4).trans (V_main_arg4 m c)),
      ((h c).2 main_arg5 (Pipeline.mem_restRefs_of main_arg5 (by decide) (by decide))).trans (V_main_arg5 m c)⟩) (run_main m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Body

end
-- ==== Proof.ArrayValue.lean ====
/-
  The result array after the run, as one function of the blocks phase two stores.

  The grid is 2 × 25 and its points are numbered row by row, so phase two is the points 25 … 49.  Point t of
  phase two stores the 400 × 128 block whose rows are rows 400 (t - 25) … 400 (t - 25) + 399 of the
  10000 × 128 result, and no phase-one point writes the result back.  The 25 blocks tile the result: row r
  lies in the block of point 25 + r / 400, at row r mod 400 of that block.  Hence the array ends holding, at
  (r, q), entry (r mod 400, q) of the block that point 25 + r / 400 stores.
-/
import proofs.«154344_g8632884265528_cont_9to1c4b_176_24_alg».proof.Proof.Data
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The phase-two point that stores row `r` of the result. -/
def ptOfRowB (r : Fin 10000) : Fin cfg0.N := ⟨25 + r.val / 400, by rw [N_eq]; omega⟩

/-- The whole result array: row `r` is row `r mod 400` of the block point `25 + r / 400` stores. -/
def outArr (c : Dev nD) : Vec F S10000x128 .f32 :=
  fun y => outAt m c (ptOfRowB (y 0)) (ix2 (locOfRow (y 0)) (y 1))

/-! ## The result window on the grid -/

/-- The result window is written back exactly at the phase-two points. -/
theorem flush6_iff : ∀ t : Fin cfg0.N, (cfg0.win 6).flush t = true ↔ 25 ≤ t.val :=
  (by decide +kernel : ∀ t : Fin grid0.N, win0_6.flush t = true ↔ 25 ≤ t.val)

/-- At a phase-two point `t` the result window's block index is `(t - 25, 0)`. -/
theorem index6 : ∀ t : Fin cfg0.N, 25 ≤ t.val →
    win0_6.index t (0 : Fin 2) = t.val - 25 ∧ win0_6.index t (1 : Fin 2) = 0 :=
  (by decide +kernel : ∀ t : Fin grid0.N, 25 ≤ t.val →
    win0_6.index t (0 : Fin 2) = t.val - 25 ∧ win0_6.index t (1 : Fin 2) = 0)

/-! ## What a phase-two point writes back is its block of the result array -/

/-- The result array at row `400 (t - 25) + x 0`, column `x 1`, is entry `x` of the block point `t` stores. -/
theorem outArr_at (c : Dev nD) (t : Fin cfg0.N) (ht : 25 ≤ t.val) (x : S400x128.Idx) (y : S10000x128.Idx)
    (h0 : (y 0).val = (t.val - 25) * 400 + (x 0).val) (h1 : (y 1).val = (x 1).val) :
    outArr m c y = outAt m c t x := by
  have hx0 : (x 0).val < 400 := (x 0).isLt
  have hp : ptOfRowB (y 0) = t := Fin.ext (by show 25 + (y 0).val / 400 = t.val; omega)
  have hl : ix2 (locOfRow (y 0)) (y 1) = x := funext fun a => Fin.ext (by
    match a with
    | ⟨0, _⟩ => show (y 0).val % 400 = (x 0).val; omega
    | ⟨1, _⟩ => exact h1)
  show outAt m c (ptOfRowB (y 0)) (ix2 (locOfRow (y 0)) (y 1)) = outAt m c t x
  rw [hp]
  exact congrArg (outAt m c t) hl

/-- What phase-two point `t` writes back is block `t` of the result array. -/
theorem flushed6_eq (c : Dev nD) (t : Fin cfg0.N) (hf : (cfg0.win 6).flush t = true) :
    (dats m 0 c).flushed 6 t = ((cfg0.win 6).blk t).view.read (Elt F) (outArr m c) := by
  have ht : 25 ≤ t.val := (flush6_iff t).mp hf
  obtain ⟨e0, e1⟩ := index6 t ht
  show (cfg0.win 6).cut (grid0.coords t) ((dats m 0 c).after 6 t) = _
  rw [after0_6]
  funext x
  show outAt m c t x = outArr m c (((cfg0.win 6).blk t).view.emb x)
  refine (outArr_at m c t ht x _ ?_ ?_).symm
  · show win0_6.index t (0 : Fin 2) * 400 + 1 * (x 0).val = (t.val - 25) * 400 + (x 0).val
    rw [e0]; omega
  · show win0_6.index t (1 : Fin 2) * 128 + 1 * (x 1).val = (x 1).val
    rw [e1]; omega

/-! ## The blocks tile the array -/

/-- An index of the result array is in point `t`'s block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v4_0).slice (win0_6.rect t)).set ↔ _
  rw [View.set_slice_whole, Rect.mem_set_unit]
  exact Iff.rfl

/-- Row `r` of the result lies in the block of phase-two point `25 + r / 400`. -/
theorem cover6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hv : (ptOfRowB (i 0)).val = 25 + (i 0).val / 400 := rfl
  have ht : 25 ≤ (ptOfRowB (i 0)).val := by rw [hv]; omega
  obtain ⟨e0, e1⟩ := index6 (ptOfRowB (i 0)) ht
  refine ⟨ptOfRowB (i 0), (flush6_iff _).mpr ht, ?_⟩
  rw [mem_blk6]
  intro a
  match a with
  | ⟨0, _⟩ =>
    show win0_6.index (ptOfRowB (i 0)) (0 : Fin 2) * 400 ≤ (i 0).val ∧ (i 0).val < win0_6.index (ptOfRowB (i 0)) (0 : Fin 2) * 400 + 400
    rw [e0, hv]; omega
  | ⟨1, _⟩ =>
    show win0_6.index (ptOfRowB (i 0)) (1 : Fin 2) * 128 ≤ (i 1).val ∧ (i 1).val < win0_6.index (ptOfRowB (i 0)) (1 : Fin 2) * 128 + 128
    rw [e1]; omega

/-! ## The array after the run -/

/-- The result array ends holding `outArr`. -/
theorem final6 (c : Dev nD) : (dats m 0 c).arrAt 6 cfg0.N = outArr m c :=
  (dats m 0 c).arrAt_eq_of_cover 6 (outArr m c) (flushed6_eq m c) (fun i => cover6 i)

end Cert.KernelIdeal.Body

end
-- ==== Proof.PayIdx.lean ====
/- The kernel body's two arithmetic payloads read at an index, at the ideal values: each matrix product into a
   zero accumulator is the sum over its contraction coordinate, the row vector broadcast along the rows reads its
   column, the pointwise sum and maximum act elementwise, and the identity shape casts are the identity. -/
import proofs.«154344_g8632884265528_cont_9to1c4b_176_24_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.Gcn.Pay

open Idealize.ShloMosaic Idealize.ShloMosaic.ValueIdx Cert.KernelIdeal Cert.KernelIdeal.Gen

/-- The left operand's index of `dot_S400x10000_S10000x128_S400x128_1_0_0_1_n_n` at axis 0 is the output row. -/
theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The left operand's index at axis 1 is the contraction coordinate. -/
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's index at axis 0 is the contraction coordinate. -/
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand's index at axis 1 is the output column. -/
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A product into the zero accumulator, read at row `p` and column `q`, is the sum over the contraction
    coordinate of the left operand's row times the right operand's column. -/
theorem matmulA_apply (l : Vec Ideal S400x10000 .f32) (r : Vec Ideal S10000x128 .f32) (p : Fin 400) (q : Fin 128) :
    matmul (F := Ideal) (φ₁ := .f32) (φ₂ := .f32) dot_S400x10000_S10000x128_S400x128_1_0_0_1_n_n none l r (constant (F := Ideal) S400x128 .f32 0x00000000#32) (ix2 p q)
      = ∑ j : Fin 10000, l (ix2 p j) * r (ix2 j q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhsA_0 _ _
    | ⟨1, _⟩ => exact (lhsA_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhsA_0 _ _).trans hk
    | ⟨1, _⟩ => exact rhsA_1 _ _)
  rw [el, er]

/-- The left operand's index of `dot_S400x128_S128x128_S400x128_1_0_0_1_n_n` at axis 0 is the output row. -/
theorem lhsB_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- The left operand's index at axis 1 is the contraction coordinate. -/
theorem lhsB_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- The right operand's index at axis 0 is the contraction coordinate. -/
theorem rhsB_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- The right operand's index at axis 1 is the output column. -/
theorem rhsB_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A product into the zero accumulator, read at row `p` and column `q`, is the sum over the contraction
    coordinate of the left operand's row times the right operand's column. -/
theorem matmulB_apply (l : Vec Ideal S400x128 .f32) (r : Vec Ideal S128x128 .f32) (p : Fin 400) (q : Fin 128) :
    matmul (F := Ideal) (φ₁ := .f32) (φ₂ := .f32) dot_S400x128_S128x128_S400x128_1_0_0_1_n_n none l r (constant (F := Ideal) S400x128 .f32 0x00000000#32) (ix2 p q)
      = ∑ j : Fin 128, l (ix2 p j) * r (ix2 j q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-- The bias row, cast to its own shape and broadcast along the rows, reads its column at every row. -/
theorem rowBcast_apply (x : Vec Ideal S1x128 .f32) (p : Fin 400) (q : Fin 128) :
    broadcastTo S400x128 (shapeCast S1x128 x shapeCasts_S1x128_S1x128) broadcasts_S1x128_S400x128 (ix2 p q)
      = x (ix2 (0 : Fin 1) q) := by
  rw [shapeCast_self]
  exact broadcastTo_apply x broadcasts_S1x128_S400x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The second payload at row `p`, column `q`: the product's sum plus the bias at the column. -/
theorem pay3_apply (v6 : Vec Ideal S400x10000 .f32) (v7 : Vec Ideal S10000x128 .f32) (v9 : Vec Ideal S1x128 .f32) (p : Fin 400) (q : Fin 128) :
    k0_pay3 (F := Ideal) v6 v7 v9 (ix2 p q) = (∑ j : Fin 10000, v6 (ix2 p j) * v7 (ix2 j q)) + v9 (ix2 (0 : Fin 1) q) := by
  unfold k0_pay3
  rw [addf_apply, matmulA_apply, rowBcast_apply]

/-- The first payload at row `p`, column `q`: the rectified hidden row times the last weight's column. -/
theorem pay1_apply (v6 : Vec Ideal S400x10000 .f32) (v7 : Vec Ideal S10000x128 .f32) (v9 : Vec Ideal S128x128 .f32) (v11 : Vec Ideal S1x128 .f32) (v17 : Vec Ideal S128x128 .f32) (p : Fin 400) (q : Fin 128) :
    k0_pay1 (F := Ideal) v6 v7 v9 v11 v17 (ix2 p q)
      = ∑ k : Fin 128, max ((∑ l : Fin 128, (∑ j : Fin 10000, v6 (ix2 p j) * v7 (ix2 j l)) * v9 (ix2 l k)) + v11 (ix2 (0 : Fin 1) k)) 0 * v17 (ix2 k q) := by
  unfold k0_pay1
  rw [shapeCast_self, matmulB_apply]
  refine Finset.sum_congr rfl fun k _ => ?_
  rw [maximumf_apply, addf_apply, broadcast_apply, matmulB_apply, rowBcast_apply]
  simp only [matmulA_apply]
  show max _ (Ideal.ofBits .f32 0x00000000#32) * _ = _
  rw [Ideal.ofBits_zero_f32]

end Cert.Gcn.Pay

end
-- ==== Proof.KernelBlocks.lean ====
/- The blocks the kernel body reads, as rows of the argument arrays, and with them the second support and the result
   block of each phase-two point as plain sums of the arguments, index by index. -/
import proofs.«154344_g8632884265528_cont_9to1c4b_176_24_alg».proof.Proof.Data
import proofs.«154344_g8632884265528_cont_9to1c4b_176_24_alg».proof.Proof.PayIdx
import proofs.«154344_g8632884265528_cont_9to1c4b_176_24_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The argument arrays as launched, each at its literal function type: features, adjacency, the two weights and the
    two biases. -/
abbrev argX (c : Dev nD) : S10000x128.Idx → EReal := m ((c.tc : Thread nD τ).loc main_arg0)
abbrev argA (c : Dev nD) : S10000x10000.Idx → EReal := m ((c.tc : Thread nD τ).loc main_arg1)
abbrev argW1 (c : Dev nD) : S128x128.Idx → EReal := m ((c.tc : Thread nD τ).loc main_arg2)
abbrev argB1 (c : Dev nD) : S128.Idx → EReal := m ((c.tc : Thread nD τ).loc main_arg3)
abbrev argW2 (c : Dev nD) : S128x128.Idx → EReal := m ((c.tc : Thread nD τ).loc main_arg4)
abbrev argB2 (c : Dev nD) : S128.Idx → EReal := m ((c.tc : Thread nD τ).loc main_arg5)

/-- The printed index maps, decided over the grid: the adjacency window moves down its rows with the point's second
    grid coordinate; every other input window stays at block (0, 0). -/
theorem idx_facts : ∀ t : Fin cfg0.N,
    win0_0.index t (0 : Fin 2) = t.val % 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The adjacency block at point `t` is rows `400 (t mod 25) …` of the adjacency matrix. -/
theorem blk0_apply (c : Dev nD) (t : Fin cfg0.N) (x : S400x10000.Idx) (k : S10000x10000.Idx)
    (hk0 : (k 0).val = 400 * (t.val % 25) + (x 0).val) (hk1 : (k 1).val = (x 1).val) :
    (blk0 m c t) x = argA m c k := by
  obtain ⟨e0, e1, -⟩ := idx_facts t
  unfold blk0 iblk
  rw [View.read_apply]
  show V m c main_arg1 _ = _
  rw [V_main_arg1]
  refine congrArg _ (funext fun a => Fin.ext ?_)
  match a with
  | ⟨0, _⟩ => show win0_0.index t 0 * 400 + 1 * (x 0).val = (k 0).val; rw [e0, hk0]; omega
  | ⟨1, _⟩ => show win0_0.index t 1 * 10000 + 1 * (x 1).val = (k 1).val; rw [e1, hk1]; omega

/-- The feature window's block is the whole feature array at every point. -/
theorem blk1_eq (c : Dev nD) (t : Fin cfg0.N) : blk1 m c t = argX m c := by
  obtain ⟨-, -, e0, e1, -⟩ := idx_facts t
  funext x
  unfold blk1 iblk
  rw [View.read_apply]
  show V m c main_arg0 _ = _
  rw [V_main_arg0]
  refine congrArg _ (funext fun a => Fin.ext ?_)
  match a with
  | ⟨0, _⟩ => show win0_1.index t 0 * 10000 + 1 * (x 0).val = (x 0).val; rw [e0]; omega
  | ⟨1, _⟩ => show win0_1.index t 1 * 128 + 1 * (x 1).val = (x 1).val; rw [e1]; omega

/-- The first weight's window holds the whole weight at every point. -/
theorem blk2_eq (c : Dev nD) (t : Fin cfg0.N) : blk2 m c t = argW1 m c := by
  obtain ⟨-, -, -, -, e0, e1, -⟩ := idx_facts t
  funext x
  unfold blk2 iblk
  rw [View.read_apply]
  show V m c main_arg2 _ = _
  rw [V_main_arg2]
  refine congrArg _ (funext fun a => Fin.ext ?_)
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The second weight's window holds the whole weight at every point. -/
theorem blk4_eq (c : Dev nD) (t : Fin cfg0.N) : blk4 m c t = argW2 m c := by
  obtain ⟨-, -, -, -, -, -, -, -, e0, e1, -⟩ := idx_facts t
  funext x
  unfold blk4 iblk
  rw [View.read_apply]
  show V m c main_arg4 _ = _
  rw [V_main_arg4]
  refine congrArg _ (funext fun a => Fin.ext ?_)
  match a with
  | ⟨0, _⟩ => show win0_4.index t 0 * 128 + 1 * (x 0).val = (x 0).val; rw [e0]; omega
  | ⟨1, _⟩ => show win0_4.index t 1 * 128 + 1 * (x 1).val = (x 1).val; rw [e1]; omega

/-- The array window 3 stages, as the host operations before the region leave it: the bias vector as a row, repeated
    down eight rows. -/
theorem V_main_v1_eq (c : Dev nD) : (V m c main_v1 : S8x128.Idx → EReal)
    = broadcastInDim S8x128 ![0, 1] bcast_S1x128_S8x128_0_1 (broadcastInDim S1x128 ![1] bcast_S128_S1x128_1 (argB1 m c)) := by
  dsimp only [Gen.V, Gen.hostOps0]; after_results

/-- Every row of the first bias window reads the first bias at its column. -/
theorem blk3_apply (c : Dev nD) (t : Fin cfg0.N) (x : S8x128.Idx) : blk3 m c t x = argB1 m c (ix1 (x 1)) := by
  obtain ⟨-, -, -, -, -, -, e0, e1, -⟩ := idx_facts t
  unfold blk3 iblk
  rw [View.read_apply]
  show V m c main_v1 _ = _
  rw [V_main_v1_eq]
  refine (broadcastInDim_apply _ bcast_S1x128_S8x128_0_1 _ _ (ix2 (0 : Fin 1) (x 1)) ?_).trans ?_
  · intro a
    match a with
    | ⟨0, _⟩ => show 0 = if (1 : Nat) = 1 then 0 else _; rw [if_pos rfl]
    | ⟨1, _⟩ => show (x 1).val = if (128 : Nat) = 1 then 0 else (win0_3.index t 1 * 128 + 1 * (x 1).val); rw [if_neg (by decide), e1]; omega
  · exact broadcastInDim_apply _ bcast_S128_S1x128_1 _ _ (ix1 (x 1)) (fun a => match a with
      | ⟨0, _⟩ => by show (x 1).val = if (128 : Nat) = 1 then 0 else (x 1).val; rw [if_neg (by decide)])

/-- The array window 5 stages, as the host operations before the region leave it: the bias vector as a row, repeated
    down eight rows. -/
theorem V_main_v3_eq (c : Dev nD) : (V m c main_v3 : S8x128.Idx → EReal)
    = broadcastInDim S8x128 ![0, 1] bcast_S1x128_S8x128_0_1 (broadcastInDim S1x128 ![1] bcast_S128_S1x128_1 (argB2 m c)) := by
  dsimp only [Gen.V, Gen.hostOps0]; after_results

/-- Every row of the second bias window reads the second bias at its column. -/
theorem blk5_apply (c : Dev nD) (t : Fin cfg0.N) (x : S8x128.Idx) : blk5 m c t x = argB2 m c (ix1 (x 1)) := by
  obtain ⟨-, -, -, -, -, -, -, -, -, -, e0, e1⟩ := idx_facts t
  unfold blk5 iblk
  rw [View.read_apply]
  show V m c main_v3 _ = _
  rw [V_main_v3_eq]
  refine (broadcastInDim_apply _ bcast_S1x128_S8x128_0_1 _ _ (ix2 (0 : Fin 1) (x 1)) ?_).trans ?_
  · intro a
    match a with
    | ⟨0, _⟩ => show 0 = if (1 : Nat) = 1 then 0 else _; rw [if_pos rfl]
    | ⟨1, _⟩ => show (x 1).val = if (128 : Nat) = 1 then 0 else (win0_5.index t 1 * 128 + 1 * (x 1).val); rw [if_neg (by decide), e1]; omega
  · exact broadcastInDim_apply _ bcast_S128_S1x128_1 _ _ (ix1 (x 1)) (fun a => match a with
      | ⟨0, _⟩ => by show (x 1).val = if (128 : Nat) = 1 then 0 else (x 1).val; rw [if_neg (by decide)])

/-- The one-row load off the top of an eight-row buffer reads row 0. -/
theorem rowLd_apply (x : Vec Ideal S8x128 .f32) (k : Fin 128) :
    View.ld x rRow (ix2 (0 : Fin 1) k) = x (ix2 (0 : Fin 8) k) := by
  show x (rRow.idx (ix2 (0 : Fin 1) k)) = x (ix2 (0 : Fin 8) k)
  refine congrArg x (funext fun a => Fin.ext ?_)
  match a with
  | ⟨0, _⟩ => show 0 + 1 * 0 = 0; rfl
  | ⟨1, _⟩ => show 0 + 1 * k.val = k.val; omega

/-- Phase one's 400 rows at row `p`, column `q`, from the loaded blocks. -/
theorem suppBlk_apply (x0 : Vec Ideal S400x10000 .f32) (x1 : Vec Ideal S10000x128 .f32) (x2 : Vec Ideal S128x128 .f32)
    (x3 : Vec Ideal S8x128 .f32) (x4 : Vec Ideal S128x128 .f32) (p : Fin 400) (q : Fin 128) :
    suppBlk x0 x1 x2 x3 x4 (ix2 p q)
      = ∑ k : Fin 128, max ((∑ l : Fin 128, (∑ j : Fin 10000, x0 (ix2 p j) * x1 (ix2 j l)) * x2 (ix2 l k)) + x3 (ix2 (0 : Fin 8) k)) 0 * x4 (ix2 k q) := by
  unfold suppBlk
  simp only [View.ld_unit_zero (S := S400x10000) zero2, View.ld_unit_zero (S := S10000x128) zero2,
    View.ld_unit_zero (S := S128x128) zero2]
  rw [Cert.Gcn.Pay.pay1_apply]
  refine Finset.sum_congr rfl fun k _ => ?_
  rw [rowLd_apply]

/-- Phase two's result block at row `p`, column `q`, from the loaded blocks. -/
theorem outBlk_apply (x0 : Vec Ideal S400x10000 .f32) (xs : Vec Ideal S10000x128 .f32) (x5 : Vec Ideal S8x128 .f32)
    (p : Fin 400) (q : Fin 128) :
    outBlk x0 xs x5 (ix2 p q) = (∑ j : Fin 10000, x0 (ix2 p j) * xs (ix2 j q)) + x5 (ix2 (0 : Fin 8) q) := by
  unfold outBlk
  simp only [View.ld_unit_zero (S := S400x10000) zero2, View.ld_unit_zero (S := S10000x128) zero2]
  rw [Cert.Gcn.Pay.pay3_apply, rowLd_apply]

/-- The second support, row by row, is the specification's: row `r` is row `r mod 400` of what point `r / 400`
    computes, whose adjacency block starts at row `400 (r / 400)`. -/
theorem suppArr_apply (c : Dev nD) (r : Fin 10000) (q : Fin 128) :
    suppArr (F := Ideal) m c (ix2 r q) = Cert.Gcn.supp2 (Cert.Gcn.hidL (argA m c) (argX m c) (argW1 m c)) (argB1 m c) (argW2 m c) r q := by
  show suppAt m c (ptOfRow r) (ix2 (locOfRow r) q) = _
  unfold suppAt
  refine (suppBlk_apply (blk0 m c (ptOfRow r)) (blk1 m c (ptOfRow r)) (blk2 m c (ptOfRow r)) (blk3 m c (ptOfRow r))
    (blk4 m c (ptOfRow r)) (locOfRow r) q).trans ?_
  have hA : ∀ j : Fin 10000, blk0 m c (ptOfRow r) (ix2 (locOfRow r) j) = argA m c (ix2 r j) := fun j =>
    blk0_apply m c (ptOfRow r) _ _ (by
      show r.val = 400 * ((r.val / 400) % 25) + r.val % 400
      have := r.isLt; omega) rfl
  have h3 : ∀ k : Fin 128, blk3 m c (ptOfRow r) (ix2 (0 : Fin 8) k) = argB1 m c (ix1 k) := fun k => blk3_apply m c _ _
  rw [blk1_eq, blk2_eq, blk4_eq]
  unfold Cert.Gcn.supp2 Cert.Gcn.hidL
  refine Finset.sum_congr rfl fun k _ => ?_
  rw [h3 k]
  refine congrArg (fun z => max (z + argB1 m c (ix1 k)) 0 * argW2 m c (ix2 k q)) ?_
  refine Finset.sum_congr rfl fun l _ => ?_
  refine congrArg (fun z => z * argW1 m c (ix2 l k)) ?_
  exact Finset.sum_congr rfl fun j _ => by rw [hA j]

/-- The result block of phase-two point `t`: its adjacency rows, starting at row `400 (t - 25)`, times the second
    support, plus the second bias. -/
theorem outAt_apply (c : Dev nD) (t : Fin cfg0.N) (ht : 25 ≤ t.val) (p : Fin 400) (q : Fin 128) :
    outAt (F := Ideal) m c t (ix2 p q)
      = (∑ j : Fin 10000, argA m c (ix2 (⟨400 * (t.val - 25) + p.val, by have := t.isLt; have := N_eq; omega⟩ : Fin 10000) j) * suppArr m c (ix2 j q)) + argB2 m c (ix1 q) := by
  unfold outAt
  refine (outBlk_apply (blk0 m c t) (suppArr m c) (blk5 m c t) p q).trans ?_
  have h5 : blk5 m c t (ix2 (0 : Fin 8) q) = argB2 m c (ix1 q) := blk5_apply m c t _
  rw [h5]
  refine congrArg (fun z => z + argB2 m c (ix1 q)) ?_
  refine Finset.sum_congr rfl fun j _ => ?_
  refine congrArg (fun z => z * suppArr m c (ix2 j q)) ?_
  exact blk0_apply m c t _ _ (by
    show 400 * (t.val - 25) + p.val = 400 * (t.val % 25) + p.val
    have := t.isLt; have := N_eq; omega) rfl

end Cert.KernelIdeal.Body

end
-- ==== Proof.Value.lean ====
/-
  The idealized kernel's result array, index by index: the two-layer graph convolution with the hidden
  pre-activation bracketed as (A·X)·W1.

  The result array is tiled by the 25 blocks phase two writes back; block j is the adjacency rows
  400 j … 400 j + 399 times the whole second support plus the bias, and row r of the second support is what
  phase-one point r / 400 computed from adjacency rows 400 (r / 400) … .
-/
import proofs.«154344_g8632884265528_cont_9to1c4b_176_24_alg».proof.Proof.Frame
import proofs.«154344_g8632884265528_cont_9to1c4b_176_24_alg».proof.Proof.ArrayValue
import proofs.«154344_g8632884265528_cont_9to1c4b_176_24_alg».proof.Proof.KernelBlocks

noncomputable section

namespace Cert.KernelIdeal.Body

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The specification's result, of the launch contents of the six argument arrays. -/
def specOut (c : Dev nD) : Cert.Gcn.SNxD.Idx → EReal :=
  Cert.Gcn.out (Cert.Gcn.hidL (argA m c) (argX m c) (argW1 m c)) (argA m c) (argB1 m c) (argW2 m c) (argB2 m c)

/-- Row `r` is row `r mod 400` of block `r / 400`. -/
theorem row_split (r : Fin 10000) :
    (⟨400 * ((ptOfRowB r).val - 25) + (locOfRow r).val, by
      have := r.isLt; unfold ptOfRowB locOfRow; dsimp only; omega⟩ : Fin 10000) = r := by
  apply Fin.ext
  unfold ptOfRowB locOfRow
  dsimp only
  have := Nat.div_add_mod r.val 400
  omega

/-- What the result array holds after the run is the specification's result. -/
theorem kernel_value (c : Dev nD) : (dats (F := Ideal) m 0 c).arrAt 6 cfg0.N = specOut m c := by
  rw [final6]
  funext y
  obtain ⟨r, q, rfl⟩ : ∃ (r : Fin 10000) (q : Fin 128), y = ix2 r q := ⟨y 0, y 1, eq_ix2 y⟩
  show outAt m c (ptOfRowB r) (ix2 (locOfRow r) q) = Cert.Gcn.outAt _ _ _ _ _ r q
  rw [outAt_apply m c (ptOfRowB r) (by unfold ptOfRowB; dsimp only; omega) (locOfRow r) q]
  unfold Cert.Gcn.outAt
  rw [row_split r]
  refine congrArg (· + _) (Finset.sum_congr rfl fun j _ => ?_)
  rw [suppArr_apply]

end Cert.KernelIdeal.Body

end
-- ==== Proof.lean ====
/-
  A two-layer graph convolution, out = A · relu(A · X · W1 + b1) · W2 + b2 with A : [10000,10000] dense,
  X : [10000,128], W1, W2 : [128,128].

  The kernel runs on a 2 × 25 grid over row blocks of 400 rows of A.  In its first phase it computes, block by block,
  the second support S = relu((A·X)·W1 + b1)·W2 into a scratch array that it keeps across grid points; in its second
  phase it computes A·S + b2 block by block from the whole scratch array.  The reference computes
  relu(A·(X·W1) + b1) instead.  The two bracketings of A·X·W1 agree because every input entry is a real number
  (the precondition): over the reals the triple product is associative, while on the extended reals the
  distributive law behind it fails at infinities.  Everything after the hidden pre-activation is literally the same
  function on both sides.

  The frames: the body's two phases are run symbolically once each (generic in the float instance); the invariant
  carried between grid points says the scratch array holds S on the rows filled so far.  The small sink output of the
  kernel is read by nothing and nothing is said of it.
-/
import proofs.«154344_g8632884265528_cont_9to1c4b_176_24_alg».proof.Defs
import proofs.«154344_g8632884265528_cont_9to1c4b_176_24_alg».proof.Proof.Gen.Kernel
import proofs.«154344_g8632884265528_cont_9to1c4b_176_24_alg».proof.Proof.Gen.KernelIdeal
import proofs.«154344_g8632884265528_cont_9to1c4b_176_24_alg».proof.Proof.Gen.ReferenceIdeal
import proofs.«154344_g8632884265528_cont_9to1c4b_176_24_alg».proof.Proof.Gen.Pre_finite_inputs
import proofs.«154344_g8632884265528_cont_9to1c4b_176_24_alg».proof.Proof.Gen.ReferenceIdeal.Run
import proofs.«154344_g8632884265528_cont_9to1c4b_176_24_alg».proof.Proof.Gen.ReferenceIdeal.Read
import proofs.«154344_g8632884265528_cont_9to1c4b_176_24_alg».proof.Proof.Spec
import proofs.«154344_g8632884265528_cont_9to1c4b_176_24_alg».proof.Proof.Algebra
import proofs.«154344_g8632884265528_cont_9to1c4b_176_24_alg».proof.Proof.Finite
import proofs.«154344_g8632884265528_cont_9to1c4b_176_24_alg».proof.Proof.RefSide
import proofs.«154344_g8632884265528_cont_9to1c4b_176_24_alg».proof.Proof.FrameK
import proofs.«154344_g8632884265528_cont_9to1c4b_176_24_alg».proof.Proof.Value
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result: the kernel's array is it by the frame run read block by block;
    the reference's term is the same function with the hidden pre-activation bracketed the other way, and the two
    bracketings agree on real entries. -/
theorem algebraic : Cert.algebraic_KernelIdeal_ReferenceIdeal := by
  intro m ρ m' ρ' hpre hagree
  refine ⟨fun c => Cert.KernelIdeal.Body.specOut m c, ?_, ?_⟩
  · exact (θ_run Cert.KernelIdeal.defs _ _).mono
      (fun _ h c => ⟨(h c).1.trans (Cert.KernelIdeal.Body.kernel_value m c), (h c).2⟩)
      (Cert.KernelIdeal.Body.run_named (F := Ideal) m ρ)
  · refine (θ_run Cert.ReferenceIdeal.defs _ _).mono (fun _ h c => ⟨?_, (h c).2⟩)
      (Cert.ReferenceIdeal.Value.run (F := Ideal) m' ρ')
    rw [(h c).1, Cert.Gcn.Ref.ref_term_eq, (hagree c).1, (hagree c).2.1, (hagree c).2.2.1, (hagree c).2.2.2.1,
      (hagree c).2.2.2.2.1, (hagree c).2.2.2.2.2]
    obtain ⟨hA, hX, hW⟩ := Cert.Gcn.real_of_finite _ _ _ _ _ _ (hpre c)
    show Cert.Gcn.out (Cert.Gcn.hidR _ _ _) _ _ _ _ = Cert.Gcn.out (Cert.Gcn.hidL _ _ _) _ _ _ _
    exact (congrArg (fun H => Cert.Gcn.out H _ _ _ _) (Cert.Gcn.hidL_eq_hidR _ _ _ hA hX hW)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
